-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg8 : FVec F S128 .f32) (main_arg9 : FVec F S128x16 .f32) (main_arg10 : FVec F S16 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x16 .f32 := Host.absf main_arg9
  let main_cst_14 : FVec F S_ .f32 := constant S_ .f32 0x7F800000#32
  let main_v40 : FVec F S128x16 .f32 := broadcastInDim S128x16 ![] bcast_S_S128x16 main_cst_14
  let main_v41 : IVec S128x16 1 := cmpf .olt main_v39 main_v40
  let main_c_15 : IVec S_ 1 := constantI S_ 1 1#1
  let main_v42 : IVec S_ 1 := (fun x v => Host.reduce IntOp.andi x v reducesTo_S128x16_S_d0_1 h_S_) main_v41 main_c_15
  let main_v43 : IVec S_ 1 := andi main_v38 main_v42
  let main_v44 : FVec F S16 .f32 := Host.absf main_arg10
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S128x128 .f32) (main_arg8 : FVec F S128 .f32) (main_arg9 : FVec F S128x16 .f32) (main_arg10 : FVec F S16 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x128 .f32) (main_arg1 : IVec S2x1600000 32) (main_arg2 : FVec F S1600000 .f32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x16 .f32) (main_arg10 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x1600000 : Shape := ⟨2, ![1, 1600000]⟩
abbrev S2000x128 : Shape := ⟨2, ![2000, 128]⟩
abbrev S1x128 : Shape := ⟨2, ![1, 128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S2000x1 : Shape := ⟨2, ![2000, 1]⟩
abbrev S100000x16 : Shape := ⟨2, ![100000, 16]⟩
abbrev S2000x16 : Shape := ⟨2, ![2000, 16]⟩
abbrev S1x16 : Shape := ⟨2, ![1, 16]⟩

abbrev nBuf : Space → Nat
  | .hbm => 85
  | .vmem => 42
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x16, .f32⟩
  | .hbm, ⟨10, _⟩ => ⟨S16, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S100000x128, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000, .f32⟩
  | .hbm, ⟨33, _⟩ => ⟨S1600000, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000, .f32⟩
  | .hbm, ⟨43, _⟩ => ⟨S1600000, .f32⟩
  | .hbm, ⟨44, _⟩ => ⟨S100000, .f32⟩
  | .hbm, ⟨45, _⟩ => ⟨S100000x1, .f32⟩
  | .hbm, ⟨46, _⟩ => ⟨S_, .f32⟩
  | .hbm, ⟨47, _⟩ => ⟨S128, .f32⟩
  | .hbm, ⟨48, _⟩ => ⟨S100000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S1600000x1, .f32⟩
  | .hbm, ⟨59, _⟩ => ⟨S1600000x128, .f32⟩
  | .hbm, ⟨60, _⟩ => ⟨S1600000x128, .f32⟩
  | .hbm, ⟨61, _⟩ => ⟨S_, .f32⟩
  | .hbm, ⟨62, _⟩ => ⟨S100000x128, .f32⟩
  | .hbm, ⟨63, _⟩ => ⟨S1600000x1, .i32⟩
  | .hbm, ⟨64, _⟩ => ⟨S100000x128, .f32⟩
  | .hbm, ⟨65, _⟩ => ⟨S100000x128, .f32⟩
  | .hbm, ⟨66, _⟩ => ⟨S100000x128, .f32⟩
  | .hbm, ⟨67, _⟩ => ⟨S_, .i32⟩
  | .hbm, ⟨68, _⟩ => ⟨S1600000, .i32⟩
  | .hbm, ⟨69, _⟩ => ⟨S1600000, .i1⟩
  | .hbm, ⟨70, _⟩ => ⟨S_, .i32⟩
  | .hbm, ⟨71, _⟩ => ⟨S1600000, .i32⟩
  | .hbm, ⟨72, _⟩ => ⟨S1600000, .i32⟩
  | .hbm, ⟨73, _⟩ => ⟨S1600000, .i32⟩
  | .hbm, ⟨74, _⟩ => ⟨S1600000x1, .i32⟩
  | .hbm, ⟨75, _⟩ => ⟨S1600000x128, .f32⟩
  | .hbm, ⟨76, _⟩ => ⟨S1600000x1, .f32⟩
  | .hbm, ⟨77, _⟩ => ⟨S1600000x128, .f32⟩
  | .hbm, ⟨78, _⟩ => ⟨S1600000x128, .f32⟩
  | .hbm, ⟨79, _⟩ => ⟨S_, .f32⟩
  | .hbm, ⟨80, _⟩ => ⟨S100000x128, .f32⟩
  | .hbm, ⟨81, _⟩ => ⟨S1600000x1, .i32⟩
  | .hbm, ⟨82, _⟩ => ⟨S100000x128, .f32⟩
  | .hbm, ⟨83, _⟩ => ⟨S100000x128, .f32⟩
  | .hbm, ⟨84, _⟩ => ⟨S100000x16, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S128x128, .f32⟩
  | .local _ .vmem, ⟨9, _⟩ => ⟨S128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x1, .f32⟩
  | .local _ .vmem, ⟨17, _⟩ => ⟨S2000x1, .f32⟩
  | .local _ .vmem, ⟨18, _⟩ => ⟨S128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S128x128, .f32⟩
  | .local _ .vmem, ⟨24, _⟩ => ⟨S128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x1, .f32⟩
  | .local _ .vmem, ⟨32, _⟩ => ⟨S2000x1, .f32⟩
  | .local _ .vmem, ⟨33, _⟩ => ⟨S128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S128x16, .f32⟩
  | .local _ .vmem, ⟨39, _⟩ => ⟨S16, .f32⟩
  | .local _ .vmem, ⟨40, _⟩ => ⟨S2000x16, .f32⟩
  | .local _ .vmem, ⟨41, _⟩ => ⟨S2000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_4 : Ref sig .tc := ⟨.hbm, 46, rfl⟩
abbrev main_v29 : Ref sig .tc := ⟨.hbm, 47, rfl⟩
abbrev main_v30 : Ref sig .tc := ⟨.hbm, 48, rfl⟩
abbrev main_c_5 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_7 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_8 : Ref sig .tc := ⟨.hbm, 67, rfl⟩
abbrev main_v46 : Ref sig .tc := ⟨.hbm, 68, rfl⟩
abbrev main_v47 : Ref sig .tc := ⟨.hbm, 69, rfl⟩
abbrev main_c_9 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_10 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg3_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg4_0 : Ref sig .tc := ⟨.vmem, 34, rfl⟩
abbrev cc4_stg4_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg3_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem4_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem3_0 : DmaSem sig := 25
abbrev cc3_sem3_1 : DmaSem sig := 26
abbrev cc4_sem0_0 : DmaSem sig := 27
abbrev cc4_sem0_1 : DmaSem sig := 28
abbrev cc4_sem1_0 : DmaSem sig := 29
abbrev cc4_sem1_1 : DmaSem sig := 30
abbrev cc4_sem2_0 : DmaSem sig := 31
abbrev cc4_sem2_1 : DmaSem sig := 32
abbrev cc4_sem3_0 : DmaSem sig := 33
abbrev cc4_sem4_0 : DmaSem sig := 34
abbrev cc4_sem4_1 : DmaSem sig := 35
abbrev cc5_sem0_0 : DmaSem sig := 36
abbrev cc5_sem0_1 : DmaSem sig := 37
abbrev cc5_sem1_0 : DmaSem sig := 38
abbrev cc5_sem2_0 : DmaSem sig := 39
abbrev cc5_sem3_0 : DmaSem sig := 40
abbrev cc5_sem3_1 : DmaSem sig := 41

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S2000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x16 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S16 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x16 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  shapeCasts_S100000_S100000x1 : S100000.ShapeCasts S100000x1
  bcast_S_S128 : S_.BroadcastsInDim S128 (![] : Fin 0 → Fin S128.rank)
  shapeCasts_S2000x128_S2000x128 : S2000x128.ShapeCasts S2000x128
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S128x16_S128x16_0_0 : ∀ a, (![0, 0] : Fin 2 → Nat) a + S128x16.size a ≤ S128x16.size a
  h_S128x16 : 0 < S128x16.numel
  inb_S16_S16_0 : ∀ a, (![0] : Fin 1 → Nat) a + S16.size a ≤ S16.size a
  h_S16 : 0 < S16.numel
  shapeCasts_S16_S1x16 : S16.ShapeCasts S1x16
  broadcasts_S1x16_S2000x16 : S1x16.Broadcasts S2000x16
  inb_S2000x16_S2000x16_0_0 : ∀ a, (![0, 0] : Fin 2 → Nat) a + S2000x16.size a ≤ S2000x16.size a
  h_S2000x16 : 0 < S2000x16.numel
  dot_S2000x128_S128x128_S2000x128_1_0_0_1_n_n_wf : DotDims.WF S2000x128 S128x128 S2000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x16_S2000x16_1_0_0_1_n_n_wf : DotDims.WF S2000x128 S128x16 S2000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S100000x128.size a
  hwx1_3 : ∀ i : grid1.Coords, EltTy.bits .f32 = 32 ∨ (Rect.block (s := S100000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S100000x1.size a
  hwx2_2 : ∀ i : grid2.Coords, EltTy.bits .f32 = 32 ∨ (Rect.block (s := S100000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S100000x128.size a
  hwx2_4 : ∀ i : grid2.Coords, EltTy.bits .f32 = 32 ∨ (Rect.block (s := S100000x128) S2000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S100000x128.size a
  hwx3_3 : ∀ i : grid3.Coords, EltTy.bits .f32 = 32 ∨ (Rect.block (s := S100000x128) S2000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S100000x128.size a
  hwx4_1 : ∀ i : grid4.Coords, EltTy.bits .f32 = 32 ∨ (Rect.block (s := S100000x128) S2000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x1.size a ≤ S100000x1.size a
  hwx4_2 : ∀ i : grid4.Coords, EltTy.bits .f32 = 32 ∨ (Rect.block (s := S100000x1) S2000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128.size a ≤ S128.size a
  hwx4_3 : ∀ i : grid4.Coords, EltTy.bits .f32 = 32 ∨ (Rect.block (s := S128) S128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x128.size a ≤ S100000x128.size a
  hwx4_4 : ∀ i : grid4.Coords, EltTy.bits .f32 = 32 ∨ (Rect.block (s := S100000x128) S2000x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S100000x128.size a
  hwx5_0 : ∀ i : grid5.Coords, EltTy.bits .f32 = 32 ∨ (Rect.block (s := S100000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x16.size a ≤ S128x16.size a
  hwx5_1 : ∀ i : grid5.Coords, EltTy.bits .f32 = 32 ∨ (Rect.block (s := S128x16) S128x16.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S16.size a ≤ S16.size a
  hwx5_2 : ∀ i : grid5.Coords, EltTy.bits .f32 = 32 ∨ (Rect.block (s := S16) S16.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x16.size a ≤ S100000x16.size a
  hwx5_3 : ∀ i : grid5.Coords, EltTy.bits .f32 = 32 ∨ (Rect.block (s := S100000x16) S2000x16.size (cc5_transform_3 i) (hinb5_3 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x16_S2000x16_1_0_0_1_n_n : DotDims S2000x128 S128x16 S2000x16 where
  lhsContracting := [1]
  rhsContracting := [0]
  lhsNonContracting := [0]
  rhsNonContracting := [1]
  lhsBatch := []
  rhsBatch := []
  wf := dot_S2000x128_S128x16_S2000x16_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v29) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v43) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v28) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v44) S2000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v44) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v29) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v45) S2000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v58) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v45) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v28) S2000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg8) S128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v59) S2000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v59) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg9) S128x16.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg10) S16.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v60) S2000x16.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x1600000 : Shape := ⟨2, ![1, 1600000]⟩
abbrev S1x128 : Shape := ⟨2, ![1, 128]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S100000x16 : Shape := ⟨2, ![100000, 16]⟩
abbrev S1x16 : Shape := ⟨2, ![1, 16]⟩

abbrev nBuf : Space → Nat
  | .hbm => 109
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x16, .f32⟩
  | .hbm, ⟨10, _⟩ => ⟨S16, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S100000x128, .f32⟩
  | .hbm, ⟨16, _⟩ => ⟨S1x128, .f32⟩
  | .hbm, ⟨17, _⟩ => ⟨S100000x128, .f32⟩
  | .hbm, ⟨18, _⟩ => ⟨S100000x128, .f32⟩
  | .hbm, ⟨19, _⟩ => ⟨S_, .f32⟩
  | .hbm, ⟨20, _⟩ => ⟨S100000x128, .f32⟩
  | .hbm, ⟨21, _⟩ => ⟨S100000x128, .f32⟩
  | .hbm, ⟨22, _⟩ => ⟨S_, .f32⟩
  | .hbm, ⟨23, _⟩ => ⟨S100000, .f32⟩
  | .hbm, ⟨24, _⟩ => ⟨S1600000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000, .f32⟩
  | .hbm, ⟨39, _⟩ => ⟨S1600000, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000, .f32⟩
  | .hbm, ⟨49, _⟩ => ⟨S1600000, .f32⟩
  | .hbm, ⟨50, _⟩ => ⟨S100000, .f32⟩
  | .hbm, ⟨51, _⟩ => ⟨S100000x128, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .f32⟩
  | .hbm, ⟨61, _⟩ => ⟨S1600000x1, .f32⟩
  | .hbm, ⟨62, _⟩ => ⟨S1600000x128, .f32⟩
  | .hbm, ⟨63, _⟩ => ⟨S1600000x128, .f32⟩
  | .hbm, ⟨64, _⟩ => ⟨S_, .f32⟩
  | .hbm, ⟨65, _⟩ => ⟨S100000x128, .f32⟩
  | .hbm, ⟨66, _⟩ => ⟨S1600000x1, .i32⟩
  | .hbm, ⟨67, _⟩ => ⟨S100000x128, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S1x128, .f32⟩
  | .hbm, ⟨73, _⟩ => ⟨S100000x128, .f32⟩
  | .hbm, ⟨74, _⟩ => ⟨S100000x128, .f32⟩
  | .hbm, ⟨75, _⟩ => ⟨S_, .f32⟩
  | .hbm, ⟨76, _⟩ => ⟨S100000x128, .f32⟩
  | .hbm, ⟨77, _⟩ => ⟨S100000x128, .f32⟩
  | .hbm, ⟨78, _⟩ => ⟨S100000x128, .f32⟩
  | .hbm, ⟨79, _⟩ => ⟨S_, .i32⟩
  | .hbm, ⟨80, _⟩ => ⟨S1600000, .i32⟩
  | .hbm, ⟨81, _⟩ => ⟨S1600000, .i1⟩
  | .hbm, ⟨82, _⟩ => ⟨S_, .i32⟩
  | .hbm, ⟨83, _⟩ => ⟨S1600000, .i32⟩
  | .hbm, ⟨84, _⟩ => ⟨S1600000, .i32⟩
  | .hbm, ⟨85, _⟩ => ⟨S1600000, .i32⟩
  | .hbm, ⟨86, _⟩ => ⟨S1600000x1, .i32⟩
  | .hbm, ⟨87, _⟩ => ⟨S1600000x128, .f32⟩
  | .hbm, ⟨88, _⟩ => ⟨S1600000x1, .f32⟩
  | .hbm, ⟨89, _⟩ => ⟨S1600000x128, .f32⟩
  | .hbm, ⟨90, _⟩ => ⟨S1600000x128, .f32⟩
  | .hbm, ⟨91, _⟩ => ⟨S_, .f32⟩
  | .hbm, ⟨92, _⟩ => ⟨S100000x128, .f32⟩
  | .hbm, ⟨93, _⟩ => ⟨S1600000x1, .i32⟩
  | .hbm, ⟨94, _⟩ => ⟨S100000x128, .f32⟩
  | .hbm, ⟨95, _⟩ => ⟨S100000x1, .f32⟩
  | .hbm, ⟨96, _⟩ => ⟨S100000x128, .f32⟩
  | .hbm, ⟨97, _⟩ => ⟨S100000x128, .f32⟩
  | .hbm, ⟨98, _⟩ => ⟨S100000x128, .f32⟩
  | .hbm, ⟨99, _⟩ => ⟨S1x128, .f32⟩
  | .hbm, ⟨100, _⟩ => ⟨S100000x128, .f32⟩
  | .hbm, ⟨101, _⟩ => ⟨S100000x128, .f32⟩
  | .hbm, ⟨102, _⟩ => ⟨S_, .f32⟩
  | .hbm, ⟨103, _⟩ => ⟨S100000x128, .f32⟩
  | .hbm, ⟨104, _⟩ => ⟨S100000x128, .f32⟩
  | .hbm, ⟨105, _⟩ => ⟨S100000x16, .f32⟩
  | .hbm, ⟨106, _⟩ => ⟨S1x16, .f32⟩
  | .hbm, ⟨107, _⟩ => ⟨S100000x16, .f32⟩
  | .hbm, ⟨108, _⟩ => ⟨S100000x16, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_call0_cst : Ref sig .tc := ⟨.hbm, 19, rfl⟩
abbrev main_call0_v0 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_1 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_2 : Ref sig .tc := ⟨.hbm, 40, rfl⟩
abbrev main_v23 : Ref sig .tc := ⟨.hbm, 41, rfl⟩
abbrev main_v24 : Ref sig .tc := ⟨.hbm, 42, rfl⟩
abbrev main_c_3 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_4 : Ref sig .tc := ⟨.hbm, 52, rfl⟩
abbrev main_v33 : Ref sig .tc := ⟨.hbm, 53, rfl⟩
abbrev main_v34 : Ref sig .tc := ⟨.hbm, 54, rfl⟩
abbrev main_c_5 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_6 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_call1_cst : Ref sig .tc := ⟨.hbm, 75, rfl⟩
abbrev main_call1_v0 : Ref sig .tc := ⟨.hbm, 76, rfl⟩
abbrev main_v53 : Ref sig .tc := ⟨.hbm, 77, rfl⟩
abbrev main_v54 : Ref sig .tc := ⟨.hbm, 78, rfl⟩
abbrev main_c_7 : Ref sig .tc := ⟨.hbm, 79, rfl⟩
abbrev main_v55 : Ref sig .tc := ⟨.hbm, 80, rfl⟩
abbrev main_v56 : Ref sig .tc := ⟨.hbm, 81, rfl⟩
abbrev main_c_8 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_9 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_call2_cst : Ref sig .tc := ⟨.hbm, 102, rfl⟩
abbrev main_call2_v0 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x16_S100000x16_1_0_0_1_n_n_wf : DotDims.WF S100000x128 S128x16 S100000x16 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf

class Facts : Prop extends Facts₀ where

variable [Facts]
-- ==== Proof.RefLayer.lean ====
/-
  The reference's graph-convolution layer update as ONE function of its four operand arrays: the aggregated
  messages agg [100000,128], the layer's product hw [100000,128], the self-loop weight column sn [100000,1] and the
  bias row b [128]:  max((agg + hw·sn) + b, 0), the column and the row broadcast over the array — and its value at an
  index. Both of the reference's layer updates are this function of their operands.
-/
import proofs.«127172_j3478923510362_1_alg».proof.Proof.Gen.ReferenceIdeal.Read
import Idealize.ShloMosaic.Lib.Pipeline.Value
import Idealize.ShloMosaic.Lib.ValueIdx

noncomputable section

open Idealize.ShloMosaic Idealize.ShloMosaic.TcCoe Idealize.SL.Sem

namespace Cert.ReferenceIdeal.Layer

open Cert.ReferenceIdeal Cert.ReferenceIdeal.Gen Cert.ReferenceIdeal.Read ValueIdx

/-- max((agg + hw·sn) + b, 0), with the reference's own broadcasts. -/
def layer (agg hw : FVec Ideal S100000x128 .f32) (sn : FVec Ideal S100000x1 .f32)
    (b : FVec Ideal S128 .f32) : FVec Ideal S100000x128 .f32 :=
  maximumf (addf (addf agg (mulf hw (broadcastInDim S100000x128 ![0, 1] bcast_S100000x1_S100000x128_0_1 sn))) (val_main_v51 (F := Ideal) b))
    (val_main_call1_v0 (F := Ideal))

/-- The layer update at row r and column q: max((agg[r,q] + hw[r,q]·sn[r,0]) + b[q], 0). -/
theorem layer_apply (agg hw : FVec Ideal S100000x128 .f32) (sn : FVec Ideal S100000x1 .f32)
    (b : FVec Ideal S128 .f32) (i : S100000x128.Idx) :
    layer agg hw sn b i
      = max ((agg i + hw i * sn (idx_main_v47 i)) + b (idx_main_v50 (idx_main_v51 i))) (FloatOps.ofBits (F := Ideal) .f32 0x00000000#32) := by
  unfold layer
  rw [maximumf_apply, addf_apply, addf_apply, mulf_apply, val_main_v51_apply, val_main_v50_apply, val_main_call1_v0_apply,
    val_main_call1_cst_apply]
  refine congrArg₂ max (congrArg₂ (· + ·) (congrArg₂ (· + ·) rfl (congrArg₂ (· * ·) rfl ?_)) rfl) rfl
  exact broadcastInDim_apply _ bcast_S100000x1_S100000x128_0_1 sn i (idx_main_v47 i) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])

end Cert.ReferenceIdeal.Layer

end
-- ==== Proof.RefOut.lean ====
/-
  The reference's last stage as ONE function of its three operand arrays: h·W + b for h [100000,128], W [128,16] and
  the row b [16] broadcast over the rows — and its value at an index: at row r and column q the sum over k of
  h[r,k]·W[k,q], plus b[q].
-/
import proofs.«127172_j3478923510362_1_alg».proof.Proof.Gen.ReferenceIdeal.Read
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem

namespace Cert.ReferenceIdeal.Out

open Cert.ReferenceIdeal Cert.ReferenceIdeal.Gen Cert.ReferenceIdeal.Read ValueIdx

/-- h·W + b, with the reference's own product and broadcasts. -/
def out (h : FVec Ideal S100000x128 .f32) (w : FVec Ideal S128x16 .f32)
    (b : FVec Ideal S16 .f32) : FVec Ideal S100000x16 .f32 :=
  addf (Host.dotGeneral dot_S100000x128_S128x16_S100000x16_1_0_0_1_n_n none h w) (val_main_v78 (F := Ideal) b)

/-- The last stage at row r and column q: the sum over k of h[r,k]·W[k,q], plus b[q]. -/
theorem out_apply (h : FVec Ideal S100000x128 .f32) (w : FVec Ideal S128x16 .f32)
    (b : FVec Ideal S16 .f32) (i : S100000x16.Idx) :
    out h w b i = (∑ k : Fin 128, h (lidx_main_v76 i k) * w (ridx_main_v76 i k)) + b (idx_main_v77 (idx_main_v78 i)) := by
  unfold out
  rw [addf_apply, val_main_v78_apply, val_main_v77_apply]
  refine congrArg₂ (· + ·) ?_ rfl
  simp only [Host.dotGeneral]
  rw [Ideal.dotGeneral_apply, ← Equiv.sum_comp (contrEquiv1 dot_S100000x128_S128x16_S100000x16_1_0_0_1_n_n 128 rfl rfl).symm]
  refine Finset.sum_congr rfl fun k _ => ?_
  have hk := contrEquiv1_symm_val dot_S100000x128_S128x16_S100000x16_1_0_0_1_n_n 128 rfl rfl k
  have el : dot_S100000x128_S128x16_S100000x16_1_0_0_1_n_n.lhsIdx i ((contrEquiv1 dot_S100000x128_S128x16_S100000x16_1_0_0_1_n_n 128 rfl rfl).symm k) = lidx_main_v76 i k := funext fun a => Fin.ext (by
    match a with
    | ⟨0, _⟩ => exact lhs_main_v76_0 _ _
    | ⟨1, _⟩ => exact (lhs_main_v76_1 _ _).trans hk)
  have er : dot_S100000x128_S128x16_S100000x16_1_0_0_1_n_n.rhsIdx i ((contrEquiv1 dot_S100000x128_S128x16_S100000x16_1_0_0_1_n_n 128 rfl rfl).symm k) = ridx_main_v76 i k := funext fun a => Fin.ext (by
    match a with
    | ⟨0, _⟩ => exact (rhs_main_v76_0 _ _).trans hk
    | ⟨1, _⟩ => exact rhs_main_v76_1 _ _)
  rw [el, er]

end Cert.ReferenceIdeal.Out

end
-- ==== Proof.BlockProduct.lean ====
/-
  The kernels' block product read at an index. A [2000,128] row block times a [128,128] weight array, into a zero
  accumulator, is at row p and column q the sum over the 128 contraction positions k of left(p,k)·right(k,q): the
  exact product's definition on the extended reals, with the operand indices of the printed dimension record
  worked out (the left operand's row is the output's row and its column the contraction position; the right
  operand's row is the contraction position and its column the output's column).
-/
import proofs.«127172_j3478923510362_1_alg».proof.Proof.Gen.KernelIdeal
import Idealize.ShloMosaic.Lib.ValueIdx
import Idealize.ShloMosaic.PureOps.Ideal.Laws

noncomputable section

open Idealize.ShloMosaic Idealize.ShloMosaic.TcCoe Idealize.SL.Sem

namespace Cert.KernelIdeal.BlockProduct

open Cert.KernelIdeal ValueIdx

theorem hz : (![0, 0] : Fin 2 → Nat) = fun _ => 0 := funext fun a => by fin_cases a <;> rfl
theorem hz1 : (![0] : Fin 1 → Nat) = fun _ => 0 := funext fun a => by fin_cases a; rfl

theorem lhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The block product at row p and column q: the sum over k of the left block at (p, k) times the right block at (k, q). -/
theorem prod128_apply (x : FVec Ideal S2000x128 .bf16) (w : FVec Ideal S128x128 .bf16) (p : Fin 2000) (q : Fin 128) :
    (matmul dot_S2000x128_S128x128_S2000x128_1_0_0_1_n_n none x w (constant S2000x128 .f32 0x00000000#32) : FVec Ideal S2000x128 .f32) (ix2 p q)
      = ∑ k : Fin 128, x (ix2 p k) * w (ix2 k q) := by
  refine (Ideal.matmul_constant_zero_apply dot_S2000x128_S128x128_S2000x128_1_0_0_1_n_n none _ _ (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_0 _ _
    | ⟨1, _⟩ => exact (lhs_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

end Cert.KernelIdeal.BlockProduct

end
-- ==== Proof.Lin0.lean ====
/-
  Region 0 of the kernel's program: x·W + b, then the maximum with 0, of a [100000,128] array x, a [128,128] array W
  and a [128] row b, computed over 50 row blocks of 2000 rows. What the region leaves in its output array is the
  reference's first stage of the three arrays the region finds at its entry: at row r = 2000·t + p and column q both
  are max((sum over k of x[r,k]·W[k,q]) + b[q], 0).
-/
import proofs.«127172_j3478923510362_1_alg».proof.Proof.Gen.KernelIdeal.Frame
import proofs.«127172_j3478923510362_1_alg».proof.Proof.BlockProduct
import proofs.«127172_j3478923510362_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Lin0

open Cert.KernelIdeal Cert.KernelIdeal.Gen Cert.KernelIdeal.BlockProduct ValueIdx
open Cert.ReferenceIdeal.Read (val_main_v8 val_main_v8_apply val_main_v7_apply val_main_v4_apply val_main_v6_apply val_main_v5_apply
  val_main_call0_v0_apply val_main_call0_cst_apply idx_main_v5 idx_main_v6 lidx_main_v4 ridx_main_v4)

variable (V : (c : Dev nD) → (b : Ref sig .tc) → Buf (Elt Ideal) ((c : Thread nD τ).loc b))

/-- The body's stored value at row p, column q of the block: max((sum over k of x[p,k]·w[k,q]) + b[q], 0). -/
theorem pay_apply (x : Vec Ideal S2000x128 .f32) (w : Vec Ideal S128x128 .f32) (b : Vec Ideal S128 .f32) (p : Fin 2000) (q : Fin 128) :
    k0_pay1 (F := Ideal) x w b (ix2 p q)
      = max ((∑ k : Fin 128, x (ix2 p k) * w (ix2 k q)) + b (ix1 q)) (FloatOps.ofBits (F := Ideal) .f32 0x00000000#32) := by
  unfold k0_pay1
  rw [maximumf_apply, addf_apply, broadcast_apply, broadcastTo_1b_ab_apply, shapeCast_a_1a_apply]
  exact congrArg₂ max (congrArg₂ (· + ·) (prod128_apply _ _ p q) rfl) rfl

/-- The printed index maps over the 50 grid points: the row-block index of the input rows and of the output rows is
    the point's number; the weight window, the bias window and every column-block index stay at 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- Row p of the input block at point t is row 2000·t + p of the array the region finds. -/
theorem xblk_apply (c : Dev nD) (t : Fin cfg0.N) (y : S2000x128.Idx) (i : S100000x128.Idx)
    (h0 : (i 0).val = 2000 * t.val + (y 0).val) (h1 : (i 1).val = (y 1).val) :
    (iblk0 V c 0 t : Vec Ideal S2000x128 .f32) y = (V c main_arg0 : S100000x128.Idx → Elt Ideal .f32) i := by
  obtain ⟨e0, e1, -, -, -, -, -⟩ := idx_facts t
  unfold iblk0
  rw [View.read_apply]
  show V c main_arg0 _ = V c main_arg0 _
  refine congrArg _ ?_
  funext a
  apply Fin.ext
  match a with
  | ⟨0, _⟩ => show win0_0.index t (0 : Fin 2) * 2000 + 1 * (y 0).val = (i 0).val; rw [e0, h0]; omega
  | ⟨1, _⟩ => show win0_0.index t (1 : Fin 2) * 128 + 1 * (y 1).val = (i 1).val; rw [e1, h1]; omega

/-- The weight block at every point is the whole weight array. -/
theorem wblk_apply (c : Dev nD) (t : Fin cfg0.N) (y : S128x128.Idx) :
    (iblk0 V c 1 t : Vec Ideal S128x128 .f32) y = (V c main_arg3 : S128x128.Idx → Elt Ideal .f32) y := by
  obtain ⟨-, -, e2, e3, -, -, -⟩ := idx_facts t
  unfold iblk0
  rw [View.read_apply]
  show V c main_arg3 _ = V c main_arg3 _
  refine congrArg _ ?_
  funext a
  apply Fin.ext
  match a with
  | ⟨0, _⟩ => show win0_1.index t (0 : Fin 2) * 128 + 1 * (y 0).val = (y 0).val; rw [e2]; omega
  | ⟨1, _⟩ => show win0_1.index t (1 : Fin 2) * 128 + 1 * (y 1).val = (y 1).val; rw [e3]; omega

/-- The bias block at every point is the whole bias row. -/
theorem bblk_apply (c : Dev nD) (t : Fin cfg0.N) (y : S128.Idx) :
    (iblk0 V c 2 t : Vec Ideal S128 .f32) y = (V c main_arg4 : S128.Idx → Elt Ideal .f32) y := by
  obtain ⟨-, -, -, -, e4, -, -⟩ := idx_facts t
  unfold iblk0
  rw [View.read_apply]
  show V c main_arg4 _ = V c main_arg4 _
  refine congrArg _ ?_
  funext a
  apply Fin.ext
  match a with
  | ⟨0, _⟩ => show win0_2.index t (0 : Fin 1) * 128 + 1 * (y 0).val = (y 0).val; rw [e4]; omega

/-- What point t writes back is block t of the reference's first stage of the three entry arrays. -/
theorem flushed_eq (c : Dev nD) (t : Fin cfg0.N) :
    (dat0 V c).flushed 3 t = ((cfg0.win 3).blk t).view.read (Elt Ideal)
      (val_main_v8 (F := Ideal) (V c main_arg0) (V c main_arg3) (V c main_arg4)) := by
  show (cfg0.win 3).cut (grid0.coords t) ((dat0 V c).after 3 t) = _
  rw [after0_3]
  unfold out0_3
  rw [View.canon_unit_zero hz]
  simp only [View.ld_unit_zero (S := S2000x128) hz, View.ld_unit_zero (S := S128x128) hz, View.ld_unit_zero (S := S128) hz1]
  obtain ⟨-, -, -, -, -, e5, e6⟩ := idx_facts t
  funext j
  obtain ⟨p, q, rfl⟩ : ∃ (p : Fin 2000) (q : Fin 128), j = ix2 p q := ⟨j 0, j 1, eq_ix2 j⟩
  show k0_pay1 (F := Ideal) (iblk0 V c 0 t) (iblk0 V c 1 t) (iblk0 V c 2 t) (ix2 p q)
    = val_main_v8 (F := Ideal) (V c main_arg0) (V c main_arg3) (V c main_arg4) (((cfg0.win 3).blk t).view.emb (ix2 p q))
  rw [pay_apply, val_main_v8_apply, val_main_v7_apply, val_main_v4_apply, val_main_v6_apply, val_main_v5_apply,
    val_main_call0_v0_apply, val_main_call0_cst_apply]
  refine congrArg₂ max (congrArg₂ (· + ·) (Finset.sum_congr rfl fun k _ => ?_) ((bblk_apply V c t _).trans (congrArg _ ?_))) rfl
  · refine congrArg₂ (· * ·) (xblk_apply V c t _ _ ?_ ?_) ((wblk_apply V c t _).trans (congrArg _ ?_))
    · show win0_3.index t (0 : Fin 2) * 2000 + 1 * p.val = 2000 * t.val + p.val
      rw [e5]; omega
    · rfl
    · funext a
      apply Fin.ext
      match a with
      | ⟨0, _⟩ => rfl
      | ⟨1, _⟩ => show q.val = win0_3.index t (1 : Fin 2) * 128 + 1 * q.val; rw [e6]; omega
  · funext a
    apply Fin.ext
    match a with
    | ⟨0, _⟩ => show q.val = win0_3.index t (1 : Fin 2) * 128 + 1 * q.val; rw [e6]; omega

/-- An index of the output array is in point t's block iff each coordinate is in the block's range on its axis. -/
theorem mem_blk (t : Fin cfg0.N) (i : S100000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v4).slice (win0_3.rect t)).set ↔ _
  rw [View.set_slice_whole, Rect.mem_set_unit]
  exact Iff.rfl

/-- The 50 row blocks cover the output array: row r lies in the block of point r / 2000. -/
theorem cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 50 := N_0
  refine ⟨⟨(i 0).val / 2000, by rw [hN]; omega⟩, flush0_3 _, ?_⟩
  rw [mem_blk]
  obtain ⟨-, -, -, -, -, e5, e6⟩ := idx_facts ⟨(i 0).val / 2000, by rw [hN]; omega⟩
  intro a
  match a with
  | ⟨0, _⟩ => show win0_3.index _ (0 : Fin 2) * 2000 ≤ (i 0).val ∧ (i 0).val < win0_3.index _ (0 : Fin 2) * 2000 + 2000; rw [e5]; dsimp only; omega
  | ⟨1, _⟩ => show win0_3.index _ (1 : Fin 2) * 128 ≤ (i 1).val ∧ (i 1).val < win0_3.index _ (1 : Fin 2) * 128 + 128; rw [e6]; omega

/-- The region's output array at its exit: the reference's first stage of the three arrays found at its entry. -/
theorem out_eq (c : Dev nD) :
    (dat0 V c).arrAt 3 cfg0.N = val_main_v8 (F := Ideal) (V c main_arg0) (V c main_arg3) (V c main_arg4) :=
  (dat0 V c).arrAt_eq_of_cover 3 _ (fun t _ => flushed_eq V c t) cover

end Cert.KernelIdeal.Lin0

end
-- ==== Proof.Dense1.lean ====
/-
  Region 1 of the kernel's program: the matrix product of a [100000,128] array with a [128,128] array, computed
  block by block over 50 row blocks of 2000 rows. What the region leaves in its output array is the reference's
  matrix product of the two arrays the region finds at its entry: at row r = 2000·t + p and column q both are
  the sum over k of x[r,k]·w[k,q].
-/
import proofs.«127172_j3478923510362_1_alg».proof.Proof.Gen.KernelIdeal.Frame
import proofs.«127172_j3478923510362_1_alg».proof.Proof.BlockProduct
import proofs.«127172_j3478923510362_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Dense1

open Cert.KernelIdeal Cert.KernelIdeal.Gen Cert.KernelIdeal.BlockProduct ValueIdx

variable (V : (c : Dev nD) → (b : Ref sig .tc) → Buf (Elt Ideal) ((c : Thread nD τ).loc b))

/-- The body's stored value at row p, column q of the block: the sum over k of x[p,k]·w[k,q] (the change of
    format on the way into the product is the identity on the extended reals). -/
theorem pay_apply (x : Vec Ideal S2000x128 .f32) (w : Vec Ideal S128x128 .f32) (p : Fin 2000) (q : Fin 128) :
    k1_pay1 (F := Ideal) x w (ix2 p q) = ∑ k : Fin 128, x (ix2 p k) * w (ix2 k q) := by
  unfold k1_pay1
  rw [shapeCast_self]
  exact prod128_apply _ _ p q

/-- The printed index maps over the 50 grid points: the row-block index of the input rows and of the output rows is
    the point's number; the weight window and every column-block index stay at 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_3.index t (0 : Fin 2) = t.val ∧ win1_3.index t (1 : Fin 2) = 0 :=
  (by decide +kernel : ∀ t : Fin grid1.N, _)

/-- Row p of the input block at point t is row 2000·t + p of the array the region finds. -/
theorem xblk_apply (c : Dev nD) (t : Fin cfg1.N) (y : S2000x128.Idx) (i : S100000x128.Idx)
    (h0 : (i 0).val = 2000 * t.val + (y 0).val) (h1 : (i 1).val = (y 1).val) :
    (iblk1 V c 0 t : Vec Ideal S2000x128 .f32) y = (V c main_v4 : S100000x128.Idx → Elt Ideal .f32) i := by
  obtain ⟨e0, e1, -, -, -, -⟩ := idx_facts t
  unfold iblk1
  rw [View.read_apply]
  show V c main_v4 _ = V c main_v4 _
  refine congrArg _ ?_
  funext a
  apply Fin.ext
  match a with
  | ⟨0, _⟩ => show win1_0.index t (0 : Fin 2) * 2000 + 1 * (y 0).val = (i 0).val; rw [e0, h0]; omega
  | ⟨1, _⟩ => show win1_0.index t (1 : Fin 2) * 128 + 1 * (y 1).val = (i 1).val; rw [e1, h1]; omega

/-- The weight block at every point is the whole weight array. -/
theorem wblk_apply (c : Dev nD) (t : Fin cfg1.N) (y : S128x128.Idx) :
    (iblk1 V c 1 t : Vec Ideal S128x128 .f32) y = (V c main_arg5 : S128x128.Idx → Elt Ideal .f32) y := by
  obtain ⟨-, -, e2, e3, -, -⟩ := idx_facts t
  unfold iblk1
  rw [View.read_apply]
  show V c main_arg5 _ = V c main_arg5 _
  refine congrArg _ ?_
  funext a
  apply Fin.ext
  match a with
  | ⟨0, _⟩ => show win1_1.index t (0 : Fin 2) * 128 + 1 * (y 0).val = (y 0).val; rw [e2]; omega
  | ⟨1, _⟩ => show win1_1.index t (1 : Fin 2) * 128 + 1 * (y 1).val = (y 1).val; rw [e3]; omega

/-- What point t writes back is block t of the reference's product of the two entry arrays. -/
theorem flushed_eq (c : Dev nD) (t : Fin cfg1.N) :
    (dat1 V c).flushed 3 t = ((cfg1.win 3).blk t).view.read (Elt Ideal)
      (Cert.ReferenceIdeal.Read.val_main_v4 (F := Ideal) (V c main_v4) (V c main_arg5)) := by
  show (cfg1.win 3).cut (grid1.coords t) ((dat1 V c).after 3 t) = _
  rw [after1_3]
  unfold out1_3
  rw [View.canon_unit_zero hz]
  simp only [View.ld_unit_zero (S := S2000x128) hz, View.ld_unit_zero (S := S128x128) hz]
  obtain ⟨-, -, -, -, e4, e5⟩ := idx_facts t
  funext j
  obtain ⟨p, q, rfl⟩ : ∃ (p : Fin 2000) (q : Fin 128), j = ix2 p q := ⟨j 0, j 1, eq_ix2 j⟩
  show k1_pay1 (F := Ideal) (iblk1 V c 0 t) (iblk1 V c 1 t) (ix2 p q)
    = Cert.ReferenceIdeal.Read.val_main_v4 (F := Ideal) (V c main_v4) (V c main_arg5) (((cfg1.win 3).blk t).view.emb (ix2 p q))
  rw [pay_apply, Cert.ReferenceIdeal.Read.val_main_v4_apply]
  refine Finset.sum_congr rfl fun k _ => ?_
  refine congrArg₂ (· * ·) (xblk_apply V c t _ _ ?_ ?_) ((wblk_apply V c t _).trans (congrArg _ ?_))
  · show win1_3.index t (0 : Fin 2) * 2000 + 1 * p.val = 2000 * t.val + p.val
    rw [e4]; omega
  · rfl
  · funext a
    apply Fin.ext
    match a with
    | ⟨0, _⟩ => rfl
    | ⟨1, _⟩ => show q.val = win1_3.index t (1 : Fin 2) * 128 + 1 * q.val; rw [e5]; omega

/-- An index of the output array is in point t's block iff each coordinate is in the block's range on its axis. -/
theorem mem_blk (t : Fin cfg1.N) (i : S100000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v30).slice (win1_3.rect t)).set ↔ _
  rw [View.set_slice_whole, Rect.mem_set_unit]
  exact Iff.rfl

/-- The 50 row blocks cover the output array: row r lies in the block of point r / 2000. -/
theorem cover (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 50 := N_1
  refine ⟨⟨(i 0).val / 2000, by rw [hN]; omega⟩, flush1_3 _, ?_⟩
  rw [mem_blk]
  obtain ⟨-, -, -, -, e4, e5⟩ := idx_facts ⟨(i 0).val / 2000, by rw [hN]; omega⟩
  intro a
  match a with
  | ⟨0, _⟩ => show win1_3.index _ (0 : Fin 2) * 2000 ≤ (i 0).val ∧ (i 0).val < win1_3.index _ (0 : Fin 2) * 2000 + 2000; rw [e4]; dsimp only; omega
  | ⟨1, _⟩ => show win1_3.index _ (1 : Fin 2) * 128 ≤ (i 1).val ∧ (i 1).val < win1_3.index _ (1 : Fin 2) * 128 + 128; rw [e5]; omega

/-- The region's output array at its exit: the reference's product of the two arrays found at its entry. -/
theorem out_eq (c : Dev nD) :
    (dat1 V c).arrAt 3 cfg1.N = Cert.ReferenceIdeal.Read.val_main_v4 (F := Ideal) (V c main_v4) (V c main_arg5) :=
  (dat1 V c).arrAt_eq_of_cover 3 _ (fun t _ => flushed_eq V c t) cover

end Cert.KernelIdeal.Dense1

end
-- ==== Proof.Comb2.lean ====
/-
  Region 2 of the kernel's program: the layer update max((agg + hw·sn) + b, 0) of the aggregated messages agg
  [100000,128], the layer's product hw [100000,128], the self-loop weight column sn [100000,1] and the bias row b
  [128], computed over 50 row blocks of 2000 rows. What the region leaves in its output array is the reference's
  layer update of the four arrays the region finds at its entry, index by index.
-/
import proofs.«127172_j3478923510362_1_alg».proof.Proof.Gen.KernelIdeal.Frame
import proofs.«127172_j3478923510362_1_alg».proof.Proof.BlockProduct
import proofs.«127172_j3478923510362_1_alg».proof.Proof.RefLayer
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem
open Idealize.ShloMosaic.Pipeline (Dat)

namespace Cert.KernelIdeal.Comb2

open Cert.KernelIdeal Cert.KernelIdeal.Gen Cert.KernelIdeal.BlockProduct ValueIdx
open Cert.ReferenceIdeal.Layer (layer layer_apply)
open Cert.ReferenceIdeal.Read (idx_main_v47 idx_main_v50 idx_main_v51)

variable (V : (c : Dev nD) → (b : Ref sig .tc) → Buf (Elt Ideal) ((c : Thread nD τ).loc b))

/-- A [2000,1] column broadcast over 128 columns reads, at (p, q), the column at (p, 0). -/
theorem colBroadcast_apply (v : Vec Ideal S2000x1 .f32) (p : Fin 2000) (q : Fin 128) :
    (broadcastTo S2000x128 v broadcasts_S2000x1_S2000x128 : FVec Ideal S2000x128 .f32) (ix2 p q) = v (ix2 p (0 : Fin 1)) := by
  refine broadcastTo_apply v broadcasts_S2000x1_S2000x128 (ix2 p q) (ix2 p (0 : Fin 1)) fun ax => ?_
  match ax with
  | ⟨0, _⟩ => show p.val = if (2000 : Nat) = 1 then 0 else p.val; rw [if_neg (by decide)]
  | ⟨1, _⟩ => show 0 = if (1 : Nat) = 1 then 0 else q.val; rw [if_pos rfl]

/-- The body's stored value at row p, column q of the block: max((agg[p,q] + hw[p,q]·sn[p,0]) + b[q], 0). -/
theorem pay_apply (agg hw : Vec Ideal S2000x128 .f32) (sn : Vec Ideal S2000x1 .f32) (b : Vec Ideal S128 .f32) (p : Fin 2000) (q : Fin 128) :
    k2_pay1 (F := Ideal) agg hw sn b (ix2 p q)
      = max ((agg (ix2 p q) + hw (ix2 p q) * sn (ix2 p (0 : Fin 1))) + b (ix1 q)) (FloatOps.ofBits (F := Ideal) .f32 0x00000000#32) := by
  unfold k2_pay1
  rw [shapeCast_self, shapeCast_self, shapeCast_self]
  rw [maximumf_apply, addf_apply, addf_apply, mulf_apply, broadcast_apply, broadcastTo_1b_ab_apply, shapeCast_a_1a_apply, colBroadcast_apply]

/-- The printed index maps over the 50 grid points: every [2000,·] window's row-block index is the point's number, the
    bias window and every column-block index stay at 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 1) = 0
    ∧ win2_4.index t (0 : Fin 2) = t.val ∧ win2_4.index t (1 : Fin 2) = 0 :=
  (by decide +kernel : ∀ t : Fin grid2.N, _)

/-- Row p of the aggregated-messages block at point t is row 2000·t + p of the array the region finds. -/
theorem aggblk_apply (c : Dev nD) (t : Fin cfg2.N) (y : S2000x128.Idx) (i : S100000x128.Idx)
    (h0 : (i 0).val = 2000 * t.val + (y 0).val) (h1 : (i 1).val = (y 1).val) :
    (iblk2 V c 0 t : Vec Ideal S2000x128 .f32) y = (V c main_v43 : S100000x128.Idx → Elt Ideal .f32) i := by
  obtain ⟨e0, e1, -, -, -, -, -, -, -⟩ := idx_facts t
  unfold iblk2
  rw [View.read_apply]
  show V c main_v43 _ = V c main_v43 _
  refine congrArg _ ?_
  funext a
  apply Fin.ext
  match a with
  | ⟨0, _⟩ => show win2_0.index t (0 : Fin 2) * 2000 + 1 * (y 0).val = (i 0).val; rw [e0, h0]; omega
  | ⟨1, _⟩ => show win2_0.index t (1 : Fin 2) * 128 + 1 * (y 1).val = (i 1).val; rw [e1, h1]; omega

/-- Row p of the product block at point t is row 2000·t + p of the array the region finds. -/
theorem hwblk_apply (c : Dev nD) (t : Fin cfg2.N) (y : S2000x128.Idx) (i : S100000x128.Idx)
    (h0 : (i 0).val = 2000 * t.val + (y 0).val) (h1 : (i 1).val = (y 1).val) :
    (iblk2 V c 1 t : Vec Ideal S2000x128 .f32) y = (V c main_v30 : S100000x128.Idx → Elt Ideal .f32) i := by
  obtain ⟨-, -, e2, e3, -, -, -, -, -⟩ := idx_facts t
  unfold iblk2
  rw [View.read_apply]
  show V c main_v30 _ = V c main_v30 _
  refine congrArg _ ?_
  funext a
  apply Fin.ext
  match a with
  | ⟨0, _⟩ => show win2_1.index t (0 : Fin 2) * 2000 + 1 * (y 0).val = (i 0).val; rw [e2, h0]; omega
  | ⟨1, _⟩ => show win2_1.index t (1 : Fin 2) * 128 + 1 * (y 1).val = (i 1).val; rw [e3, h1]; omega

/-- Row p of the self-loop weight block at point t is row 2000·t + p of the column the region finds. -/
theorem snblk_apply (c : Dev nD) (t : Fin cfg2.N) (y : S2000x1.Idx) (i : S100000x1.Idx)
    (h0 : (i 0).val = 2000 * t.val + (y 0).val) (h1 : (i 1).val = (y 1).val) :
    (iblk2 V c 2 t : Vec Ideal S2000x1 .f32) y = (V c main_v28 : S100000x1.Idx → Elt Ideal .f32) i := by
  obtain ⟨-, -, -, -, e4, e5, -, -, -⟩ := idx_facts t
  unfold iblk2
  rw [View.read_apply]
  show V c main_v28 _ = V c main_v28 _
  refine congrArg _ ?_
  funext a
  apply Fin.ext
  match a with
  | ⟨0, _⟩ => show win2_2.index t (0 : Fin 2) * 2000 + 1 * (y 0).val = (i 0).val; rw [e4, h0]; omega
  | ⟨1, _⟩ => show win2_2.index t (1 : Fin 2) * 1 + 1 * (y 1).val = (i 1).val; rw [e5, h1]; omega

/-- The bias block at every point is the whole bias row. -/
theorem bblk_apply (c : Dev nD) (t : Fin cfg2.N) (y : S128.Idx) :
    (iblk2 V c 3 t : Vec Ideal S128 .f32) y = (V c main_arg6 : S128.Idx → Elt Ideal .f32) y := by
  obtain ⟨-, -, -, -, -, -, e6, -, -⟩ := idx_facts t
  unfold iblk2
  rw [View.read_apply]
  show V c main_arg6 _ = V c main_arg6 _
  refine congrArg _ ?_
  funext a
  apply Fin.ext
  match a with
  | ⟨0, _⟩ => show win2_3.index t (0 : Fin 1) * 128 + 1 * (y 0).val = (y 0).val; rw [e6]; omega

/-- What point t writes back is block t of the reference's layer update of the four entry arrays. -/
theorem flushed_eq (c : Dev nD) (t : Fin cfg2.N) :
    (dat2 V c).flushed 4 t = ((cfg2.win 4).blk t).view.read (Elt Ideal)
      (layer (V c main_v43) (V c main_v30) (V c main_v28) (V c main_arg6)) := by
  show (cfg2.win 4).cut (grid2.coords t) ((dat2 V c).after 4 t) = _
  rw [after2_4]
  unfold out2_4
  rw [View.canon_unit_zero hz]
  simp only [View.ld_unit_zero (S := S2000x128) hz, View.ld_unit_zero (S := S2000x1) hz, View.ld_unit_zero (S := S128) hz1]
  obtain ⟨-, -, -, -, -, -, -, e7, e8⟩ := idx_facts t
  funext j
  obtain ⟨p, q, rfl⟩ : ∃ (p : Fin 2000) (q : Fin 128), j = ix2 p q := ⟨j 0, j 1, eq_ix2 j⟩
  show k2_pay1 (F := Ideal) (iblk2 V c 0 t) (iblk2 V c 1 t) (iblk2 V c 2 t) (iblk2 V c 3 t) (ix2 p q)
    = layer (V c main_v43) (V c main_v30) (V c main_v28) (V c main_arg6) (((cfg2.win 4).blk t).view.emb (ix2 p q))
  rw [pay_apply, layer_apply]
  have hr : win2_4.index t (0 : Fin 2) * 2000 + 1 * p.val = 2000 * t.val + p.val := by rw [e7]; omega
  have hq : win2_4.index t (1 : Fin 2) * 128 + 1 * q.val = q.val := by rw [e8]; omega
  refine congrArg₂ max (congrArg₂ (· + ·) (congrArg₂ (· + ·) (aggblk_apply V c t _ _ hr hq)
    (congrArg₂ (· * ·) (hwblk_apply V c t _ _ hr hq) (snblk_apply V c t _ _ hr rfl))) ((bblk_apply V c t _).trans (congrArg _ ?_))) rfl
  funext a
  apply Fin.ext
  match a with
  | ⟨0, _⟩ => exact hq.symm

/-- An index of the output array is in point t's block iff each coordinate is in the block's range on its axis. -/
theorem mem_blk (t : Fin cfg2.N) (i : S100000x128.Idx) :
    i ∈ ((cfg2.win 4).blk t).view.set ↔ ∀ a : Fin 2, win2_4.index t a * S2000x128.size a ≤ (i a).val ∧ (i a).val < win2_4.index t a * S2000x128.size a + S2000x128.size a := by
  show i ∈ ((View.whole main_v44).slice (win2_4.rect t)).set ↔ _
  rw [View.set_slice_whole, Rect.mem_set_unit]
  exact Iff.rfl

/-- The 50 row blocks cover the output array: row r lies in the block of point r / 2000. -/
theorem cover (i : S100000x128.Idx) : ∃ t : Fin cfg2.N, (cfg2.win 4).flush t = true ∧ i ∈ ((cfg2.win 4).blk t).view.set := by
  have hi0 : (i 0).val < 100000 := (i 0).isLt
  have hi1 : (i 1).val < 128 := (i 1).isLt
  have hN : cfg2.N = 50 := N_2
  refine ⟨⟨(i 0).val / 2000, by rw [hN]; omega⟩, flush2_4 _, ?_⟩
  rw [mem_blk]
  obtain ⟨-, -, -, -, -, -, -, e7, e8⟩ := idx_facts ⟨(i 0).val / 2000, by rw [hN]; omega⟩
  intro a
  match a with
  | ⟨0, _⟩ => show win2_4.index _ (0 : Fin 2) * 2000 ≤ (i 0).val ∧ (i 0).val < win2_4.index _ (0 : Fin 2) * 2000 + 2000; rw [e7]; dsimp only; omega
  | ⟨1, _⟩ => show win2_4.index _ (1 : Fin 2) * 128 ≤ (i 1).val ∧ (i 1).val < win2_4.index _ (1 : Fin 2) * 128 + 128; rw [e8]; omega

/-- The region's output array at its exit: the reference's layer update of the four arrays found at its entry. -/
theorem out_eq (c : Dev nD) :
    (dat2 V c).arrAt 4 cfg2.N = layer (V c main_v43) (V c main_v30) (V c main_v28) (V c main_arg6) :=
  (dat2 V c).arrAt_eq_of_cover 4 _ (fun t _ => flushed_eq V c t) cover

end Cert.KernelIdeal.Comb2

end
-- ==== Proof.Dense3.lean ====
/-
  Region 3 of the kernel's program: the matrix product of a [100000,128] array with a [128,128] array, computed
  block by block over 50 row blocks of 2000 rows. What the region leaves in its output array is the reference's
  matrix product of the two arrays the region finds at its entry: at row r = 2000·t + p and column q both are
  the sum over k of x[r,k]·w[k,q].
-/
import proofs.«127172_j3478923510362_1_alg».proof.Proof.Gen.KernelIdeal.Frame
import proofs.«127172_j3478923510362_1_alg».proof.Proof.BlockProduct
import proofs.«127172_j3478923510362_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Dense3

open Cert.KernelIdeal Cert.KernelIdeal.Gen Cert.KernelIdeal.BlockProduct ValueIdx

variable (V : (c : Dev nD) → (b : Ref sig .tc) → Buf (Elt Ideal) ((c : Thread nD τ).loc b))

/-- The body's stored value at row p, column q of the block: the sum over k of x[p,k]·w[k,q] (the change of
    format on the way into the product is the identity on the extended reals). -/
theorem pay_apply (x : Vec Ideal S2000x128 .f32) (w : Vec Ideal S128x128 .f32) (p : Fin 2000) (q : Fin 128) :
    k3_pay1 (F := Ideal) x w (ix2 p q) = ∑ k : Fin 128, x (ix2 p k) * w (ix2 k q) := by
  unfold k3_pay1
  rw [shapeCast_self]
  exact prod128_apply _ _ p q

/-- The printed index maps over the 50 grid points: the row-block index of the input rows and of the output rows is
    the point's number; the weight window and every column-block index stay at 0. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_3.index t (0 : Fin 2) = t.val ∧ win3_3.index t (1 : Fin 2) = 0 :=
  (by decide +kernel : ∀ t : Fin grid3.N, _)

/-- Row p of the input block at point t is row 2000·t + p of the array the region finds. -/
theorem xblk_apply (c : Dev nD) (t : Fin cfg3.N) (y : S2000x128.Idx) (i : S100000x128.Idx)
    (h0 : (i 0).val = 2000 * t.val + (y 0).val) (h1 : (i 1).val = (y 1).val) :
    (iblk3 V c 0 t : Vec Ideal S2000x128 .f32) y = (V c main_v44 : S100000x128.Idx → Elt Ideal .f32) i := by
  obtain ⟨e0, e1, -, -, -, -⟩ := idx_facts t
  unfold iblk3
  rw [View.read_apply]
  show V c main_v44 _ = V c main_v44 _
  refine congrArg _ ?_
  funext a
  apply Fin.ext
  match a with
  | ⟨0, _⟩ => show win3_0.index t (0 : Fin 2) * 2000 + 1 * (y 0).val = (i 0).val; rw [e0, h0]; omega
  | ⟨1, _⟩ => show win3_0.index t (1 : Fin 2) * 128 + 1 * (y 1).val = (i 1).val; rw [e1, h1]; omega

/-- The weight block at every point is the whole weight array. -/
theorem wblk_apply (c : Dev nD) (t : Fin cfg3.N) (y : S128x128.Idx) :
    (iblk3 V c 1 t : Vec Ideal S128x128 .f32) y = (V c main_arg7 : S128x128.Idx → Elt Ideal .f32) y := by
  obtain ⟨-, -, e2, e3, -, -⟩ := idx_facts t
  unfold iblk3
  rw [View.read_apply]
  show V c main_arg7 _ = V c main_arg7 _
  refine congrArg _ ?_
  funext a
  apply Fin.ext
  match a with
  | ⟨0, _⟩ => show win3_1.index t (0 : Fin 2) * 128 + 1 * (y 0).val = (y 0).val; rw [e2]; omega
  | ⟨1, _⟩ => show win3_1.index t (1 : Fin 2) * 128 + 1 * (y 1).val = (y 1).val; rw [e3]; omega

/-- What point t writes back is block t of the reference's product of the two entry arrays. -/
theorem flushed_eq (c : Dev nD) (t : Fin cfg3.N) :
    (dat3 V c).flushed 3 t = ((cfg3.win 3).blk t).view.read (Elt Ideal)
      (Cert.ReferenceIdeal.Read.val_main_v4 (F := Ideal) (V c main_v44) (V c main_arg7)) := by
  show (cfg3.win 3).cut (grid3.coords t) ((dat3 V c).after 3 t) = _
  rw [after3_3]
  unfold out3_3
  rw [View.canon_unit_zero hz]
  simp only [View.ld_unit_zero (S := S2000x128) hz, View.ld_unit_zero (S := S128x128) hz]
  obtain ⟨-, -, -, -, e4, e5⟩ := idx_facts t
  funext j
  obtain ⟨p, q, rfl⟩ : ∃ (p : Fin 2000) (q : Fin 128), j = ix2 p q := ⟨j 0, j 1, eq_ix2 j⟩
  show k3_pay1 (F := Ideal) (iblk3 V c 0 t) (iblk3 V c 1 t) (ix2 p q)
    = Cert.ReferenceIdeal.Read.val_main_v4 (F := Ideal) (V c main_v44) (V c main_arg7) (((cfg3.win 3).blk t).view.emb (ix2 p q))
  rw [pay_apply, Cert.ReferenceIdeal.Read.val_main_v4_apply]
  refine Finset.sum_congr rfl fun k _ => ?_
  refine congrArg₂ (· * ·) (xblk_apply V c t _ _ ?_ ?_) ((wblk_apply V c t _).trans (congrArg _ ?_))
  · show win3_3.index t (0 : Fin 2) * 2000 + 1 * p.val = 2000 * t.val + p.val
    rw [e4]; omega
  · rfl
  · funext a
    apply Fin.ext
    match a with
    | ⟨0, _⟩ => rfl
    | ⟨1, _⟩ => show q.val = win3_3.index t (1 : Fin 2) * 128 + 1 * q.val; rw [e5]; omega

/-- An index of the output array is in point t's block iff each coordinate is in the block's range on its axis. -/
theorem mem_blk (t : Fin cfg3.N) (i : S100000x128.Idx) :
    i ∈ ((cfg3.win 3).blk t).view.set ↔ ∀ a : Fin 2, win3_3.index t a * S2000x128.size a ≤ (i a).val ∧ (i a).val < win3_3.index t a * S2000x128.size a + S2000x128.size a := by
  show i ∈ ((View.whole main_v45).slice (win3_3.rect t)).set ↔ _
  rw [View.set_slice_whole, Rect.mem_set_unit]
  exact Iff.rfl

/-- The 50 row blocks cover the output array: row r lies in the block of point r / 2000. -/
theorem cover (i : S100000x128.Idx) : ∃ t : Fin cfg3.N, (cfg3.win 3).flush t = true ∧ i ∈ ((cfg3.win 3).blk t).view.set := by
  have hi0 : (i 0).val < 100000 := (i 0).isLt
  have hi1 : (i 1).val < 128 := (i 1).isLt
  have hN : cfg3.N = 50 := N_3
  refine ⟨⟨(i 0).val / 2000, by rw [hN]; omega⟩, flush3_3 _, ?_⟩
  rw [mem_blk]
  obtain ⟨-, -, -, -, e4, e5⟩ := idx_facts ⟨(i 0).val / 2000, by rw [hN]; omega⟩
  intro a
  match a with
  | ⟨0, _⟩ => show win3_3.index _ (0 : Fin 2) * 2000 ≤ (i 0).val ∧ (i 0).val < win3_3.index _ (0 : Fin 2) * 2000 + 2000; rw [e4]; dsimp only; omega
  | ⟨1, _⟩ => show win3_3.index _ (1 : Fin 2) * 128 ≤ (i 1).val ∧ (i 1).val < win3_3.index _ (1 : Fin 2) * 128 + 128; rw [e5]; omega

/-- The region's output array at its exit: the reference's product of the two arrays found at its entry. -/
theorem out_eq (c : Dev nD) :
    (dat3 V c).arrAt 3 cfg3.N = Cert.ReferenceIdeal.Read.val_main_v4 (F := Ideal) (V c main_v44) (V c main_arg7) :=
  (dat3 V c).arrAt_eq_of_cover 3 _ (fun t _ => flushed_eq V c t) cover

end Cert.KernelIdeal.Dense3

end
-- ==== Proof.Comb4.lean ====
/-
  Region 4 of the kernel's program: the layer update max((agg + hw·sn) + b, 0) of the aggregated messages agg
  [100000,128], the layer's product hw [100000,128], the self-loop weight column sn [100000,1] and the bias row b
  [128], computed over 50 row blocks of 2000 rows. What the region leaves in its output array is the reference's
  layer update of the four arrays the region finds at its entry, index by index.
-/
import proofs.«127172_j3478923510362_1_alg».proof.Proof.Gen.KernelIdeal.Frame
import proofs.«127172_j3478923510362_1_alg».proof.Proof.BlockProduct
import proofs.«127172_j3478923510362_1_alg».proof.Proof.RefLayer
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem
open Idealize.ShloMosaic.Pipeline (Dat)

namespace Cert.KernelIdeal.Comb4

open Cert.KernelIdeal Cert.KernelIdeal.Gen Cert.KernelIdeal.BlockProduct ValueIdx
open Cert.ReferenceIdeal.Layer (layer layer_apply)
open Cert.ReferenceIdeal.Read (idx_main_v47 idx_main_v50 idx_main_v51)

variable (V : (c : Dev nD) → (b : Ref sig .tc) → Buf (Elt Ideal) ((c : Thread nD τ).loc b))

/-- A [2000,1] column broadcast over 128 columns reads, at (p, q), the column at (p, 0). -/
theorem colBroadcast_apply (v : Vec Ideal S2000x1 .f32) (p : Fin 2000) (q : Fin 128) :
    (broadcastTo S2000x128 v broadcasts_S2000x1_S2000x128 : FVec Ideal S2000x128 .f32) (ix2 p q) = v (ix2 p (0 : Fin 1)) := by
  refine broadcastTo_apply v broadcasts_S2000x1_S2000x128 (ix2 p q) (ix2 p (0 : Fin 1)) fun ax => ?_
  match ax with
  | ⟨0, _⟩ => show p.val = if (2000 : Nat) = 1 then 0 else p.val; rw [if_neg (by decide)]
  | ⟨1, _⟩ => show 0 = if (1 : Nat) = 1 then 0 else q.val; rw [if_pos rfl]

/-- The body's stored value at row p, column q of the block: max((agg[p,q] + hw[p,q]·sn[p,0]) + b[q], 0). -/
theorem pay_apply (agg hw : Vec Ideal S2000x128 .f32) (sn : Vec Ideal S2000x1 .f32) (b : Vec Ideal S128 .f32) (p : Fin 2000) (q : Fin 128) :
    k4_pay1 (F := Ideal) agg hw sn b (ix2 p q)
      = max ((agg (ix2 p q) + hw (ix2 p q) * sn (ix2 p (0 : Fin 1))) + b (ix1 q)) (FloatOps.ofBits (F := Ideal) .f32 0x00000000#32) := by
  unfold k4_pay1
  rw [shapeCast_self, shapeCast_self, shapeCast_self]
  rw [maximumf_apply, addf_apply, addf_apply, mulf_apply, broadcast_apply, broadcastTo_1b_ab_apply, shapeCast_a_1a_apply, colBroadcast_apply]

/-- The printed index maps over the 50 grid points: every [2000,·] window's row-block index is the point's number, the
    bias window and every column-block index stay at 0. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 1) = 0
    ∧ win4_4.index t (0 : Fin 2) = t.val ∧ win4_4.index t (1 : Fin 2) = 0 :=
  (by decide +kernel : ∀ t : Fin grid4.N, _)

/-- Row p of the aggregated-messages block at point t is row 2000·t + p of the array the region finds. -/
theorem aggblk_apply (c : Dev nD) (t : Fin cfg4.N) (y : S2000x128.Idx) (i : S100000x128.Idx)
    (h0 : (i 0).val = 2000 * t.val + (y 0).val) (h1 : (i 1).val = (y 1).val) :
    (iblk4 V c 0 t : Vec Ideal S2000x128 .f32) y = (V c main_v58 : S100000x128.Idx → Elt Ideal .f32) i := by
  obtain ⟨e0, e1, -, -, -, -, -, -, -⟩ := idx_facts t
  unfold iblk4
  rw [View.read_apply]
  show V c main_v58 _ = V c main_v58 _
  refine congrArg _ ?_
  funext a
  apply Fin.ext
  match a with
  | ⟨0, _⟩ => show win4_0.index t (0 : Fin 2) * 2000 + 1 * (y 0).val = (i 0).val; rw [e0, h0]; omega
  | ⟨1, _⟩ => show win4_0.index t (1 : Fin 2) * 128 + 1 * (y 1).val = (i 1).val; rw [e1, h1]; omega

/-- Row p of the product block at point t is row 2000·t + p of the array the region finds. -/
theorem hwblk_apply (c : Dev nD) (t : Fin cfg4.N) (y : S2000x128.Idx) (i : S100000x128.Idx)
    (h0 : (i 0).val = 2000 * t.val + (y 0).val) (h1 : (i 1).val = (y 1).val) :
    (iblk4 V c 1 t : Vec Ideal S2000x128 .f32) y = (V c main_v45 : S100000x128.Idx → Elt Ideal .f32) i := by
  obtain ⟨-, -, e2, e3, -, -, -, -, -⟩ := idx_facts t
  unfold iblk4
  rw [View.read_apply]
  show V c main_v45 _ = V c main_v45 _
  refine congrArg _ ?_
  funext a
  apply Fin.ext
  match a with
  | ⟨0, _⟩ => show win4_1.index t (0 : Fin 2) * 2000 + 1 * (y 0).val = (i 0).val; rw [e2, h0]; omega
  | ⟨1, _⟩ => show win4_1.index t (1 : Fin 2) * 128 + 1 * (y 1).val = (i 1).val; rw [e3, h1]; omega

/-- Row p of the self-loop weight block at point t is row 2000·t + p of the column the region finds. -/
theorem snblk_apply (c : Dev nD) (t : Fin cfg4.N) (y : S2000x1.Idx) (i : S100000x1.Idx)
    (h0 : (i 0).val = 2000 * t.val + (y 0).val) (h1 : (i 1).val = (y 1).val) :
    (iblk4 V c 2 t : Vec Ideal S2000x1 .f32) y = (V c main_v28 : S100000x1.Idx → Elt Ideal .f32) i := by
  obtain ⟨-, -, -, -, e4, e5, -, -, -⟩ := idx_facts t
  unfold iblk4
  rw [View.read_apply]
  show V c main_v28 _ = V c main_v28 _
  refine congrArg _ ?_
  funext a
  apply Fin.ext
  match a with
  | ⟨0, _⟩ => show win4_2.index t (0 : Fin 2) * 2000 + 1 * (y 0).val = (i 0).val; rw [e4, h0]; omega
  | ⟨1, _⟩ => show win4_2.index t (1 : Fin 2) * 1 + 1 * (y 1).val = (i 1).val; rw [e5, h1]; omega

/-- The bias block at every point is the whole bias row. -/
theorem bblk_apply (c : Dev nD) (t : Fin cfg4.N) (y : S128.Idx) :
    (iblk4 V c 3 t : Vec Ideal S128 .f32) y = (V c main_arg8 : S128.Idx → Elt Ideal .f32) y := by
  obtain ⟨-, -, -, -, -, -, e6, -, -⟩ := idx_facts t
  unfold iblk4
  rw [View.read_apply]
  show V c main_arg8 _ = V c main_arg8 _
  refine congrArg _ ?_
  funext a
  apply Fin.ext
  match a with
  | ⟨0, _⟩ => show win4_3.index t (0 : Fin 1) * 128 + 1 * (y 0).val = (y 0).val; rw [e6]; omega

/-- What point t writes back is block t of the reference's layer update of the four entry arrays. -/
theorem flushed_eq (c : Dev nD) (t : Fin cfg4.N) :
    (dat4 V c).flushed 4 t = ((cfg4.win 4).blk t).view.read (Elt Ideal)
      (layer (V c main_v58) (V c main_v45) (V c main_v28) (V c main_arg8)) := by
  show (cfg4.win 4).cut (grid4.coords t) ((dat4 V c).after 4 t) = _
  rw [after4_4]
  unfold out4_4
  rw [View.canon_unit_zero hz]
  simp only [View.ld_unit_zero (S := S2000x128) hz, View.ld_unit_zero (S := S2000x1) hz, View.ld_unit_zero (S := S128) hz1]
  obtain ⟨-, -, -, -, -, -, -, e7, e8⟩ := idx_facts t
  funext j
  obtain ⟨p, q, rfl⟩ : ∃ (p : Fin 2000) (q : Fin 128), j = ix2 p q := ⟨j 0, j 1, eq_ix2 j⟩
  show k4_pay1 (F := Ideal) (iblk4 V c 0 t) (iblk4 V c 1 t) (iblk4 V c 2 t) (iblk4 V c 3 t) (ix2 p q)
    = layer (V c main_v58) (V c main_v45) (V c main_v28) (V c main_arg8) (((cfg4.win 4).blk t).view.emb (ix2 p q))
  rw [pay_apply, layer_apply]
  have hr : win4_4.index t (0 : Fin 2) * 2000 + 1 * p.val = 2000 * t.val + p.val := by rw [e7]; omega
  have hq : win4_4.index t (1 : Fin 2) * 128 + 1 * q.val = q.val := by rw [e8]; omega
  refine congrArg₂ max (congrArg₂ (· + ·) (congrArg₂ (· + ·) (aggblk_apply V c t _ _ hr hq)
    (congrArg₂ (· * ·) (hwblk_apply V c t _ _ hr hq) (snblk_apply V c t _ _ hr rfl))) ((bblk_apply V c t _).trans (congrArg _ ?_))) rfl
  funext a
  apply Fin.ext
  match a with
  | ⟨0, _⟩ => exact hq.symm

/-- An index of the output array is in point t's block iff each coordinate is in the block's range on its axis. -/
theorem mem_blk (t : Fin cfg4.N) (i : S100000x128.Idx) :
    i ∈ ((cfg4.win 4).blk t).view.set ↔ ∀ a : Fin 2, win4_4.index t a * S2000x128.size a ≤ (i a).val ∧ (i a).val < win4_4.index t a * S2000x128.size a + S2000x128.size a := by
  show i ∈ ((View.whole main_v59).slice (win4_4.rect t)).set ↔ _
  rw [View.set_slice_whole, Rect.mem_set_unit]
  exact Iff.rfl

/-- The 50 row blocks cover the output array: row r lies in the block of point r / 2000. -/
theorem cover (i : S100000x128.Idx) : ∃ t : Fin cfg4.N, (cfg4.win 4).flush t = true ∧ i ∈ ((cfg4.win 4).blk t).view.set := by
  have hi0 : (i 0).val < 100000 := (i 0).isLt
  have hi1 : (i 1).val < 128 := (i 1).isLt
  have hN : cfg4.N = 50 := N_4
  refine ⟨⟨(i 0).val / 2000, by rw [hN]; omega⟩, flush4_4 _, ?_⟩
  rw [mem_blk]
  obtain ⟨-, -, -, -, -, -, -, e7, e8⟩ := idx_facts ⟨(i 0).val / 2000, by rw [hN]; omega⟩
  intro a
  match a with
  | ⟨0, _⟩ => show win4_4.index _ (0 : Fin 2) * 2000 ≤ (i 0).val ∧ (i 0).val < win4_4.index _ (0 : Fin 2) * 2000 + 2000; rw [e7]; dsimp only; omega
  | ⟨1, _⟩ => show win4_4.index _ (1 : Fin 2) * 128 ≤ (i 1).val ∧ (i 1).val < win4_4.index _ (1 : Fin 2) * 128 + 128; rw [e8]; omega

/-- The region's output array at its exit: the reference's layer update of the four arrays found at its entry. -/
theorem out_eq (c : Dev nD) :
    (dat4 V c).arrAt 4 cfg4.N = layer (V c main_v58) (V c main_v45) (V c main_v28) (V c main_arg8) :=
  (dat4 V c).arrAt_eq_of_cover 4 _ (fun t _ => flushed_eq V c t) cover

end Cert.KernelIdeal.Comb4

end
-- ==== Proof.Lin5.lean ====
/-
  Region 5 of the kernel's program: h·W + b of a [100000,128] array h, a [128,16] array W and a [16] row b, computed
  over 50 row blocks of 2000 rows. What the region leaves in its output array is the reference's last stage of the
  three arrays the region finds at its entry: at row r = 2000·t + p and column q both are the sum over k of
  h[r,k]·W[k,q], plus b[q].
-/
import proofs.«127172_j3478923510362_1_alg».proof.Proof.Gen.KernelIdeal.Frame
import proofs.«127172_j3478923510362_1_alg».proof.Proof.BlockProduct
import proofs.«127172_j3478923510362_1_alg».proof.Proof.RefOut
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Lin5

open Cert.KernelIdeal Cert.KernelIdeal.Gen Cert.KernelIdeal.BlockProduct ValueIdx
open Cert.ReferenceIdeal.Out (out out_apply)
open Cert.ReferenceIdeal.Read (lidx_main_v76 ridx_main_v76 idx_main_v77 idx_main_v78)

variable (V : (c : Dev nD) → (b : Ref sig .tc) → Buf (Elt Ideal) ((c : Thread nD τ).loc b))

/-- The operand indices of the [2000,128] × [128,16] block product: the left operand's row is the output's row and
    its column the contraction position; the right operand's row is the contraction position and its column the
    output's column. -/
theorem lhs16_0 (i : S2000x16.Idx) (q : dot_S2000x128_S128x16_S2000x16_1_0_0_1_n_n.contr.Idx) :
    (dot_S2000x128_S128x16_S2000x16_1_0_0_1_n_n.lhsIdx i q 0).val = (i 0).val := by
  unfold DotDims.lhsIdx
  rw [dif_neg (show ¬(0 : Fin S2000x128.rank) ∈ dot_S2000x128_S128x16_S2000x16_1_0_0_1_n_n.lhsBatch by decide), dif_pos (show (0 : Fin S2000x128.rank) ∈ dot_S2000x128_S128x16_S2000x16_1_0_0_1_n_n.lhsNonContracting by decide)]
  rfl
theorem lhs16_1 (i : S2000x16.Idx) (q : dot_S2000x128_S128x16_S2000x16_1_0_0_1_n_n.contr.Idx) :
    (dot_S2000x128_S128x16_S2000x16_1_0_0_1_n_n.lhsIdx i q 1).val = (q ⟨0, by decide⟩).val :=
  dot_S2000x128_S128x16_S2000x16_1_0_0_1_n_n.lhsIdx_val_of_single rfl i q
theorem rhs16_0 (i : S2000x16.Idx) (q : dot_S2000x128_S128x16_S2000x16_1_0_0_1_n_n.contr.Idx) :
    (dot_S2000x128_S128x16_S2000x16_1_0_0_1_n_n.rhsIdx i q 0).val = (q ⟨0, by decide⟩).val :=
  dot_S2000x128_S128x16_S2000x16_1_0_0_1_n_n.rhsIdx_val_of_single rfl i q
theorem rhs16_1 (i : S2000x16.Idx) (q : dot_S2000x128_S128x16_S2000x16_1_0_0_1_n_n.contr.Idx) :
    (dot_S2000x128_S128x16_S2000x16_1_0_0_1_n_n.rhsIdx i q 1).val = (i 1).val := by
  unfold DotDims.rhsIdx
  rw [dif_neg (show ¬(1 : Fin S128x16.rank) ∈ dot_S2000x128_S128x16_S2000x16_1_0_0_1_n_n.rhsBatch by decide), dif_pos (show (1 : Fin S128x16.rank) ∈ dot_S2000x128_S128x16_S2000x16_1_0_0_1_n_n.rhsNonContracting by decide)]
  rfl

/-- The block product at row p and column q: the sum over k of the left block at (p, k) times the right block at (k, q). -/
theorem prod16_apply (x : FVec Ideal S2000x128 .bf16) (w : FVec Ideal S128x16 .bf16) (p : Fin 2000) (q : Fin 16) :
    (matmul dot_S2000x128_S128x16_S2000x16_1_0_0_1_n_n none x w (constant S2000x16 .f32 0x00000000#32) : FVec Ideal S2000x16 .f32) (ix2 p q)
      = ∑ k : Fin 128, x (ix2 p k) * w (ix2 k q) := by
  refine (Ideal.matmul_constant_zero_apply dot_S2000x128_S128x16_S2000x16_1_0_0_1_n_n none _ _ (ix2 p q)).trans ?_
  rw [← Equiv.sum_comp (contrEquiv1 dot_S2000x128_S128x16_S2000x16_1_0_0_1_n_n 128 rfl rfl).symm]
  refine Finset.sum_congr rfl fun k _ => ?_
  have hk := contrEquiv1_symm_val dot_S2000x128_S128x16_S2000x16_1_0_0_1_n_n 128 rfl rfl k
  have el : dot_S2000x128_S128x16_S2000x16_1_0_0_1_n_n.lhsIdx (ix2 p q) ((contrEquiv1 dot_S2000x128_S128x16_S2000x16_1_0_0_1_n_n 128 rfl rfl).symm k) = ix2 p k := funext fun a => Fin.ext (by
    match a with
    | ⟨0, _⟩ => exact lhs16_0 _ _
    | ⟨1, _⟩ => exact (lhs16_1 _ _).trans hk)
  have er : dot_S2000x128_S128x16_S2000x16_1_0_0_1_n_n.rhsIdx (ix2 p q) ((contrEquiv1 dot_S2000x128_S128x16_S2000x16_1_0_0_1_n_n 128 rfl rfl).symm k) = ix2 k q := funext fun a => Fin.ext (by
    match a with
    | ⟨0, _⟩ => exact (rhs16_0 _ _).trans hk
    | ⟨1, _⟩ => exact rhs16_1 _ _)
  rw [el, er]

/-- The body's stored value at row p, column q of the block: the sum over k of h[p,k]·w[k,q], plus b[q]. -/
theorem pay_apply (x : Vec Ideal S2000x128 .f32) (w : Vec Ideal S128x16 .f32) (b : Vec Ideal S16 .f32) (p : Fin 2000) (q : Fin 16) :
    k5_pay1 (F := Ideal) x w b (ix2 p q) = (∑ k : Fin 128, x (ix2 p k) * w (ix2 k q)) + b (ix1 q) := by
  unfold k5_pay1
  rw [shapeCast_self]
  rw [addf_apply, broadcastTo_1b_ab_apply, shapeCast_a_1a_apply]
  exact congrArg₂ (· + ·) (prod16_apply _ _ p q) rfl

/-- The printed index maps over the 50 grid points: the row-block index of the input rows and of the output rows is
    the point's number; the weight window, the bias window and every column-block index stay at 0. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 1) = 0
    ∧ win5_3.index t (0 : Fin 2) = t.val ∧ win5_3.index t (1 : Fin 2) = 0 :=
  (by decide +kernel : ∀ t : Fin grid5.N, _)

/-- Row p of the input block at point t is row 2000·t + p of the array the region finds. -/
theorem xblk_apply (c : Dev nD) (t : Fin cfg5.N) (y : S2000x128.Idx) (i : S100000x128.Idx)
    (h0 : (i 0).val = 2000 * t.val + (y 0).val) (h1 : (i 1).val = (y 1).val) :
    (iblk5 V c 0 t : Vec Ideal S2000x128 .f32) y = (V c main_v59 : S100000x128.Idx → Elt Ideal .f32) i := by
  obtain ⟨e0, e1, -, -, -, -, -⟩ := idx_facts t
  unfold iblk5
  rw [View.read_apply]
  show V c main_v59 _ = V c main_v59 _
  refine congrArg _ ?_
  funext a
  apply Fin.ext
  match a with
  | ⟨0, _⟩ => show win5_0.index t (0 : Fin 2) * 2000 + 1 * (y 0).val = (i 0).val; rw [e0, h0]; omega
  | ⟨1, _⟩ => show win5_0.index t (1 : Fin 2) * 128 + 1 * (y 1).val = (i 1).val; rw [e1, h1]; omega

/-- The weight block at every point is the whole weight array. -/
theorem wblk_apply (c : Dev nD) (t : Fin cfg5.N) (y : S128x16.Idx) :
    (iblk5 V c 1 t : Vec Ideal S128x16 .f32) y = (V c main_arg9 : S128x16.Idx → Elt Ideal .f32) y := by
  obtain ⟨-, -, e2, e3, -, -, -⟩ := idx_facts t
  unfold iblk5
  rw [View.read_apply]
  show V c main_arg9 _ = V c main_arg9 _
  refine congrArg _ ?_
  funext a
  apply Fin.ext
  match a with
  | ⟨0, _⟩ => show win5_1.index t (0 : Fin 2) * 128 + 1 * (y 0).val = (y 0).val; rw [e2]; omega
  | ⟨1, _⟩ => show win5_1.index t (1 : Fin 2) * 16 + 1 * (y 1).val = (y 1).val; rw [e3]; omega

/-- The bias block at every point is the whole bias row. -/
theorem bblk_apply (c : Dev nD) (t : Fin cfg5.N) (y : S16.Idx) :
    (iblk5 V c 2 t : Vec Ideal S16 .f32) y = (V c main_arg10 : S16.Idx → Elt Ideal .f32) y := by
  obtain ⟨-, -, -, -, e4, -, -⟩ := idx_facts t
  unfold iblk5
  rw [View.read_apply]
  show V c main_arg10 _ = V c main_arg10 _
  refine congrArg _ ?_
  funext a
  apply Fin.ext
  match a with
  | ⟨0, _⟩ => show win5_2.index t (0 : Fin 1) * 16 + 1 * (y 0).val = (y 0).val; rw [e4]; omega

/-- What point t writes back is block t of the reference's last stage of the three entry arrays. -/
theorem flushed_eq (c : Dev nD) (t : Fin cfg5.N) :
    (dat5 V c).flushed 3 t = ((cfg5.win 3).blk t).view.read (Elt Ideal)
      (out (V c main_v59) (V c main_arg9) (V c main_arg10)) := by
  show (cfg5.win 3).cut (grid5.coords t) ((dat5 V c).after 3 t) = _
  rw [after5_3]
  unfold out5_3
  rw [View.canon_unit_zero hz]
  simp only [View.ld_unit_zero (S := S2000x128) hz, View.ld_unit_zero (S := S128x16) hz, View.ld_unit_zero (S := S16) hz1]
  obtain ⟨-, -, -, -, -, e5, e6⟩ := idx_facts t
  funext j
  obtain ⟨p, q, rfl⟩ : ∃ (p : Fin 2000) (q : Fin 16), j = ix2 p q := ⟨j 0, j 1, eq_ix2 j⟩
  show k5_pay1 (F := Ideal) (iblk5 V c 0 t) (iblk5 V c 1 t) (iblk5 V c 2 t) (ix2 p q)
    = out (V c main_v59) (V c main_arg9) (V c main_arg10) (((cfg5.win 3).blk t).view.emb (ix2 p q))
  rw [pay_apply, out_apply]
  have hq : win5_3.index t (1 : Fin 2) * 16 + 1 * q.val = q.val := by rw [e6]; omega
  refine congrArg₂ (· + ·) (Finset.sum_congr rfl fun k _ => ?_) ((bblk_apply V c t _).trans (congrArg _ ?_))
  · refine congrArg₂ (· * ·) (xblk_apply V c t _ _ ?_ ?_) ((wblk_apply V c t _).trans (congrArg _ ?_))
    · show win5_3.index t (0 : Fin 2) * 2000 + 1 * p.val = 2000 * t.val + p.val
      rw [e5]; omega
    · rfl
    · funext a
      apply Fin.ext
      match a with
      | ⟨0, _⟩ => rfl
      | ⟨1, _⟩ => exact hq.symm
  · funext a
    apply Fin.ext
    match a with
    | ⟨0, _⟩ => exact hq.symm

/-- An index of the output array is in point t's block iff each coordinate is in the block's range on its axis. -/
theorem mem_blk (t : Fin cfg5.N) (i : S100000x16.Idx) :
    i ∈ ((cfg5.win 3).blk t).view.set ↔ ∀ a : Fin 2, win5_3.index t a * S2000x16.size a ≤ (i a).val ∧ (i a).val < win5_3.index t a * S2000x16.size a + S2000x16.size a := by
  show i ∈ ((View.whole main_v60).slice (win5_3.rect t)).set ↔ _
  rw [View.set_slice_whole, Rect.mem_set_unit]
  exact Iff.rfl

/-- The 50 row blocks cover the output array: row r lies in the block of point r / 2000. -/
theorem cover (i : S100000x16.Idx) : ∃ t : Fin cfg5.N, (cfg5.win 3).flush t = true ∧ i ∈ ((cfg5.win 3).blk t).view.set := by
  have hi0 : (i 0).val < 100000 := (i 0).isLt
  have hi1 : (i 1).val < 16 := (i 1).isLt
  have hN : cfg5.N = 50 := N_5
  refine ⟨⟨(i 0).val / 2000, by rw [hN]; omega⟩, flush5_3 _, ?_⟩
  rw [mem_blk]
  obtain ⟨-, -, -, -, -, e5, e6⟩ := idx_facts ⟨(i 0).val / 2000, by rw [hN]; omega⟩
  intro a
  match a with
  | ⟨0, _⟩ => show win5_3.index _ (0 : Fin 2) * 2000 ≤ (i 0).val ∧ (i 0).val < win5_3.index _ (0 : Fin 2) * 2000 + 2000; rw [e5]; dsimp only; omega
  | ⟨1, _⟩ => show win5_3.index _ (1 : Fin 2) * 16 ≤ (i 1).val ∧ (i 1).val < win5_3.index _ (1 : Fin 2) * 16 + 16; rw [e6]; omega

/-- The region's output array at its exit: the reference's last stage of the three arrays found at its entry. -/
theorem out_eq (c : Dev nD) :
    (dat5 V c).arrAt 3 cfg5.N = out (V c main_v59) (V c main_arg9) (V c main_arg10) :=
  (dat5 V c).arrAt_eq_of_cover 3 _ (fun t _ => flushed_eq V c t) cover

end Cert.KernelIdeal.Lin5

end
-- ==== Proof.Chain.lean ====
/-
  The kernel's run, boundary by boundary. Its @main is ten segments: stretches of host operations and six kernel
  regions. At each segment boundary the buffers still to be read hold the reference's own stages of the launch
  arguments: the source and destination rows of the edge list, the first layer max(x·W₁ + b₁, 0), the edge weights
  normalised by the degrees and the self-loop weights, each layer's product, its aggregated messages and its update
  max((agg + hw·sn) + b, 0), and at the end h·W_out + b_out. A host stretch applies the same operations as the
  reference to equal operands; a region's output array is the reference's stage of its entry arrays (the region
  modules); every other buffer passes a segment unchanged.
-/
import proofs.«127172_j3478923510362_1_alg».proof.Proof.Gen.KernelIdeal.Frame
import proofs.«127172_j3478923510362_1_alg».proof.Proof.RefLayer
import proofs.«127172_j3478923510362_1_alg».proof.Proof.RefOut
import proofs.«127172_j3478923510362_1_alg».proof.Proof.Lin0
import proofs.«127172_j3478923510362_1_alg».proof.Proof.Dense1
import proofs.«127172_j3478923510362_1_alg».proof.Proof.Comb2
import proofs.«127172_j3478923510362_1_alg».proof.Proof.Dense3
import proofs.«127172_j3478923510362_1_alg».proof.Proof.Comb4
import proofs.«127172_j3478923510362_1_alg».proof.Proof.Lin5
import Idealize.ShloMosaic.Lib.StableHlo.Run
import Idealize.ShloMosaic.Lib.Pipeline.Value

set_option maxRecDepth 16384

noncomputable section

open Idealize.ShloMosaic Idealize.ShloMosaic.TcCoe Idealize.SL.Sem Idealize.ShloMosaic.StableHlo
open Idealize.ShloMosaic.Pipeline (Dat)

namespace Cert.KernelIdeal.Chain

open Cert.KernelIdeal Cert.KernelIdeal.Gen ValueIdx
open Cert.ReferenceIdeal.Read (val_main_v1 val_main_v3 val_main_v4 val_main_v8 val_main_v30 val_main_v31 val_main_v32 val_main_v45
  val_main_v46 val_main_v53 val_main_v54 val_main_v67 val_main_v75 val_main_v79)
open Cert.ReferenceIdeal.Layer (layer)
open Cert.ReferenceIdeal.Out (out)

variable (m : (ℓ : Loc nD τ sig) → Buf (Elt Ideal) ℓ) (ρ : Dev nD → PrngReg)

/-- A buffer that no operation of a host stretch writes keeps its contents over the stretch. -/
macro "host_keep" : tactic => `(tactic| (show StableHlo.after _ _ (Proc.devRef .tc _) = _; after_results))
/-- The same over a long stretch, in one pass. -/
macro "host_keep_long" : tactic => `(tactic| (show StableHlo.after _ _ (Proc.devRef .tc _) = _; after_results_simp))

/-! ## The launch arguments, and the reference's stages of them -/

abbrev A0 (c : Dev nD) : Buf (Elt Ideal) ((c.tc : Thread nD τ).loc main_arg0) := m ((c.tc : Thread nD τ).loc main_arg0)
abbrev A1 (c : Dev nD) : Buf (Elt Ideal) ((c.tc : Thread nD τ).loc main_arg1) := m ((c.tc : Thread nD τ).loc main_arg1)
abbrev A2 (c : Dev nD) : Buf (Elt Ideal) ((c.tc : Thread nD τ).loc main_arg2) := m ((c.tc : Thread nD τ).loc main_arg2)
abbrev A3 (c : Dev nD) : Buf (Elt Ideal) ((c.tc : Thread nD τ).loc main_arg3) := m ((c.tc : Thread nD τ).loc main_arg3)
abbrev A4 (c : Dev nD) : Buf (Elt Ideal) ((c.tc : Thread nD τ).loc main_arg4) := m ((c.tc : Thread nD τ).loc main_arg4)
abbrev A5 (c : Dev nD) : Buf (Elt Ideal) ((c.tc : Thread nD τ).loc main_arg5) := m ((c.tc : Thread nD τ).loc main_arg5)
abbrev A6 (c : Dev nD) : Buf (Elt Ideal) ((c.tc : Thread nD τ).loc main_arg6) := m ((c.tc : Thread nD τ).loc main_arg6)
abbrev A7 (c : Dev nD) : Buf (Elt Ideal) ((c.tc : Thread nD τ).loc main_arg7) := m ((c.tc : Thread nD τ).loc main_arg7)
abbrev A8 (c : Dev nD) : Buf (Elt Ideal) ((c.tc : Thread nD τ).loc main_arg8) := m ((c.tc : Thread nD τ).loc main_arg8)
abbrev A9 (c : Dev nD) : Buf (Elt Ideal) ((c.tc : Thread nD τ).loc main_arg9) := m ((c.tc : Thread nD τ).loc main_arg9)
abbrev A10 (c : Dev nD) : Buf (Elt Ideal) ((c.tc : Thread nD τ).loc main_arg10) := m ((c.tc : Thread nD τ).loc main_arg10)

/-- The edge list's source row. -/
abbrev SRC (c : Dev nD) := val_main_v1 (F := Ideal) (A1 m c)
/-- The edge list's destination row. -/
abbrev DST (c : Dev nD) := val_main_v3 (F := Ideal) (A1 m c)
/-- The first layer, max(x·W₁ + b₁, 0). -/
abbrev H0 (c : Dev nD) := val_main_v8 (F := Ideal) (A0 m c) (A3 m c) (A4 m c)
/-- The edge weights normalised by the degrees of their two ends. -/
abbrev NORM (c : Dev nD) := val_main_v30 (F := Ideal) (A1 m c) (A2 m c)
/-- The self-loop weights, as a column. -/
abbrev SN (c : Dev nD) := val_main_v46 (F := Ideal) (A1 m c) (A2 m c)
/-- The first graph layer's product. -/
abbrev HW1 (c : Dev nD) := val_main_v32 (F := Ideal) (A0 m c) (A3 m c) (A4 m c) (A5 m c)
/-- Its aggregated messages. -/
abbrev AGG1 (c : Dev nD) := val_main_v45 (F := Ideal) (A0 m c) (A1 m c) (A2 m c) (A3 m c) (A4 m c) (A5 m c)
/-- Its update. -/
abbrev H1 (c : Dev nD) := val_main_v53 (F := Ideal) (A0 m c) (A1 m c) (A2 m c) (A3 m c) (A4 m c) (A5 m c) (A6 m c)
/-- The second graph layer's product. -/
abbrev HW2 (c : Dev nD) := val_main_v54 (F := Ideal) (A0 m c) (A1 m c) (A2 m c) (A3 m c) (A4 m c) (A5 m c) (A6 m c) (A7 m c)
/-- Its aggregated messages. -/
abbrev AGG2 (c : Dev nD) := val_main_v67 (F := Ideal) (A0 m c) (A1 m c) (A2 m c) (A3 m c) (A4 m c) (A5 m c) (A6 m c) (A7 m c)
/-- Its update. -/
abbrev H2 (c : Dev nD) := val_main_v75 (F := Ideal) (A0 m c) (A1 m c) (A2 m c) (A3 m c) (A4 m c) (A5 m c) (A6 m c) (A7 m c) (A8 m c)
/-- The result. -/
abbrev OUT (c : Dev nD) := val_main_v79 (F := Ideal) (A0 m c) (A1 m c) (A2 m c) (A3 m c) (A4 m c) (A5 m c) (A6 m c) (A7 m c) (A8 m c) (A9 m c) (A10 m c)

/-! ## Boundary 1, after the first host stretch: the edge list's two rows -/

theorem w1_v1 (c : Dev nD) : W1 m ρ c (Proc.devRef .tc main_v1) = SRC m c := by
  show StableHlo.after hostOps0 (W0 m ρ c) (Proc.devRef .tc main_v1) = _
  after_results
  rfl
theorem w1_v3 (c : Dev nD) : W1 m ρ c (Proc.devRef .tc main_v3) = DST m c := by
  show StableHlo.after hostOps0 (W0 m ρ c) (Proc.devRef .tc main_v3) = _
  after_results
  rfl
theorem w1_arg0 (c : Dev nD) : W1 m ρ c (Proc.devRef .tc main_arg0) = A0 m c := by host_keep
theorem w1_arg2 (c : Dev nD) : W1 m ρ c (Proc.devRef .tc main_arg2) = A2 m c := by host_keep
theorem w1_arg3 (c : Dev nD) : W1 m ρ c (Proc.devRef .tc main_arg3) = A3 m c := by host_keep
theorem w1_arg4 (c : Dev nD) : W1 m ρ c (Proc.devRef .tc main_arg4) = A4 m c := by host_keep
theorem w1_arg5 (c : Dev nD) : W1 m ρ c (Proc.devRef .tc main_arg5) = A5 m c := by host_keep
theorem w1_arg6 (c : Dev nD) : W1 m ρ c (Proc.devRef .tc main_arg6) = A6 m c := by host_keep
theorem w1_arg7 (c : Dev nD) : W1 m ρ c (Proc.devRef .tc main_arg7) = A7 m c := by host_keep
theorem w1_arg8 (c : Dev nD) : W1 m ρ c (Proc.devRef .tc main_arg8) = A8 m c := by host_keep
theorem w1_arg9 (c : Dev nD) : W1 m ρ c (Proc.devRef .tc main_arg9) = A9 m c := by host_keep
theorem w1_arg10 (c : Dev nD) : W1 m ρ c (Proc.devRef .tc main_arg10) = A10 m c := by host_keep

/-! ## Boundary 2, after region 0: the first layer -/

theorem w2_v4 (c : Dev nD) : W2 m ρ c (Proc.devRef .tc main_v4) = H0 m c := by
  refine (W2_arr m ρ c 3).trans ((Lin0.out_eq (V1 m ρ) c).trans ?_)
  have e0 : V1 m ρ c main_arg0 = A0 m c := w1_arg0 m ρ c
  have e3 : V1 m ρ c main_arg3 = A3 m c := w1_arg3 m ρ c
  have e4 : V1 m ρ c main_arg4 = A4 m c := w1_arg4 m ρ c
  rw [e0, e3, e4]
theorem w2_v1 (c : Dev nD) : W2 m ρ c (Proc.devRef .tc main_v1) = SRC m c := (W2_of_ne m ρ c main_v1 (by decide)).trans (w1_v1 m ρ c)
theorem w2_v3 (c : Dev nD) : W2 m ρ c (Proc.devRef .tc main_v3) = DST m c := (W2_of_ne m ρ c main_v3 (by decide)).trans (w1_v3 m ρ c)
theorem w2_arg2 (c : Dev nD) : W2 m ρ c (Proc.devRef .tc main_arg2) = A2 m c := (W2_of_ne m ρ c main_arg2 (by decide)).trans (w1_arg2 m ρ c)
theorem w2_arg5 (c : Dev nD) : W2 m ρ c (Proc.devRef .tc main_arg5) = A5 m c := (W2_of_ne m ρ c main_arg5 (by decide)).trans (w1_arg5 m ρ c)
theorem w2_arg6 (c : Dev nD) : W2 m ρ c (Proc.devRef .tc main_arg6) = A6 m c := (W2_of_ne m ρ c main_arg6 (by decide)).trans (w1_arg6 m ρ c)
theorem w2_arg7 (c : Dev nD) : W2 m ρ c (Proc.devRef .tc main_arg7) = A7 m c := (W2_of_ne m ρ c main_arg7 (by decide)).trans (w1_arg7 m ρ c)
theorem w2_arg8 (c : Dev nD) : W2 m ρ c (Proc.devRef .tc main_arg8) = A8 m c := (W2_of_ne m ρ c main_arg8 (by decide)).trans (w1_arg8 m ρ c)
theorem w2_arg9 (c : Dev nD) : W2 m ρ c (Proc.devRef .tc main_arg9) = A9 m c := (W2_of_ne m ρ c main_arg9 (by decide)).trans (w1_arg9 m ρ c)
theorem w2_arg10 (c : Dev nD) : W2 m ρ c (Proc.devRef .tc main_arg10) = A10 m c := (W2_of_ne m ρ c main_arg10 (by decide)).trans (w1_arg10 m ρ c)

/-! ## Boundary 3, after the second host stretch: the normalised edge weights and the self-loop weights -/

set_option maxHeartbeats 4000000 in
theorem w3_v26 (c : Dev nD) : W3 m ρ c (Proc.devRef .tc main_v26) = NORM m c := by
  show StableHlo.after hostOps1 (W2 m ρ c) (Proc.devRef .tc main_v26) = _
  after_results_simp
  rw [w2_v1 m ρ c, w2_v3 m ρ c, w2_arg2 m ρ c]
  rfl

/-- A [100000] array cast to a [100000,1] column is that array broadcast along its one axis into the column. -/
theorem col_eq (y : FVec Ideal S100000 .f32) :
    shapeCast S100000x1 y shapeCasts_S100000_S100000x1
      = broadcastInDim Cert.ReferenceIdeal.S100000x1 ![0] Cert.ReferenceIdeal.Gen.bcast_S100000_S100000x1_0 y := by
  funext i
  have hi1 : (i 1).val = 0 := by have h : (i 1).val < 1 := (i 1).isLt; omega
  refine (shapeCast_apply y shapeCasts_S100000_S100000x1 i (ix1 (i 0)) ?_).trans
    (broadcastInDim_apply _ Cert.ReferenceIdeal.Gen.bcast_S100000_S100000x1_0 y i (ix1 (i 0)) (fun a => match a with
      | ⟨0, _⟩ => by show (i 0).val = if (100000 : Nat) = 1 then 0 else (i 0).val; rw [if_neg (by decide)])).symm
  rw [Shape.rowMajor_val_two, Shape.rowMajor_val_one]
  show (i 0).val = (i 0).val * 1 + (i 1).val
  rw [hi1]; omega

set_option maxHeartbeats 4000000 in
theorem w3_v28 (c : Dev nD) : W3 m ρ c (Proc.devRef .tc main_v28) = SN m c := by
  show StableHlo.after hostOps1 (W2 m ρ c) (Proc.devRef .tc main_v28) = _
  after_results_simp
  rw [w2_v3 m ρ c, w2_arg2 m ρ c]
  refine (col_eq _).trans ?_
  rfl
theorem w3_v4 (c : Dev nD) : W3 m ρ c (Proc.devRef .tc main_v4) = H0 m c := (by host_keep_long : W3 m ρ c (Proc.devRef .tc main_v4) = W2 m ρ c (Proc.devRef .tc main_v4)).trans (w2_v4 m ρ c)
theorem w3_v1 (c : Dev nD) : W3 m ρ c (Proc.devRef .tc main_v1) = SRC m c := (by host_keep_long : W3 m ρ c (Proc.devRef .tc main_v1) = W2 m ρ c (Proc.devRef .tc main_v1)).trans (w2_v1 m ρ c)
theorem w3_v3 (c : Dev nD) : W3 m ρ c (Proc.devRef .tc main_v3) = DST m c := (by host_keep_long : W3 m ρ c (Proc.devRef .tc main_v3) = W2 m ρ c (Proc.devRef .tc main_v3)).trans (w2_v3 m ρ c)
theorem w3_arg5 (c : Dev nD) : W3 m ρ c (Proc.devRef .tc main_arg5) = A5 m c := (by host_keep_long : W3 m ρ c (Proc.devRef .tc main_arg5) = W2 m ρ c (Proc.devRef .tc main_arg5)).trans (w2_arg5 m ρ c)
theorem w3_arg6 (c : Dev nD) : W3 m ρ c (Proc.devRef .tc main_arg6) = A6 m c := (by host_keep_long : W3 m ρ c (Proc.devRef .tc main_arg6) = W2 m ρ c (Proc.devRef .tc main_arg6)).trans (w2_arg6 m ρ c)
theorem w3_arg7 (c : Dev nD) : W3 m ρ c (Proc.devRef .tc main_arg7) = A7 m c := (by host_keep_long : W3 m ρ c (Proc.devRef .tc main_arg7) = W2 m ρ c (Proc.devRef .tc main_arg7)).trans (w2_arg7 m ρ c)
theorem w3_arg8 (c : Dev nD) : W3 m ρ c (Proc.devRef .tc main_arg8) = A8 m c := (by host_keep_long : W3 m ρ c (Proc.devRef .tc main_arg8) = W2 m ρ c (Proc.devRef .tc main_arg8)).trans (w2_arg8 m ρ c)
theorem w3_arg9 (c : Dev nD) : W3 m ρ c (Proc.devRef .tc main_arg9) = A9 m c := (by host_keep_long : W3 m ρ c (Proc.devRef .tc main_arg9) = W2 m ρ c (Proc.devRef .tc main_arg9)).trans (w2_arg9 m ρ c)
theorem w3_arg10 (c : Dev nD) : W3 m ρ c (Proc.devRef .tc main_arg10) = A10 m c := (by host_keep_long : W3 m ρ c (Proc.devRef .tc main_arg10) = W2 m ρ c (Proc.devRef .tc main_arg10)).trans (w2_arg10 m ρ c)

/-! ## Boundary 4, after region 1: the first graph layer's product -/

theorem w4_v30 (c : Dev nD) : W4 m ρ c (Proc.devRef .tc main_v30) = HW1 m c := by
  refine (W4_arr m ρ c 3).trans ((Dense1.out_eq (V3 m ρ) c).trans ?_)
  have e0 : V3 m ρ c main_v4 = H0 m c := w3_v4 m ρ c
  have e1 : V3 m ρ c main_arg5 = A5 m c := w3_arg5 m ρ c
  rw [e0, e1]
  rfl
theorem w4_v1 (c : Dev nD) : W4 m ρ c (Proc.devRef .tc main_v1) = SRC m c := (W4_of_ne m ρ c main_v1 (by decide)).trans (w3_v1 m ρ c)
theorem w4_v3 (c : Dev nD) : W4 m ρ c (Proc.devRef .tc main_v3) = DST m c := (W4_of_ne m ρ c main_v3 (by decide)).trans (w3_v3 m ρ c)
theorem w4_v26 (c : Dev nD) : W4 m ρ c (Proc.devRef .tc main_v26) = NORM m c := (W4_of_ne m ρ c main_v26 (by decide)).trans (w3_v26 m ρ c)
theorem w4_v28 (c : Dev nD) : W4 m ρ c (Proc.devRef .tc main_v28) = SN m c := (W4_of_ne m ρ c main_v28 (by decide)).trans (w3_v28 m ρ c)
theorem w4_arg6 (c : Dev nD) : W4 m ρ c (Proc.devRef .tc main_arg6) = A6 m c := (W4_of_ne m ρ c main_arg6 (by decide)).trans (w3_arg6 m ρ c)
theorem w4_arg7 (c : Dev nD) : W4 m ρ c (Proc.devRef .tc main_arg7) = A7 m c := (W4_of_ne m ρ c main_arg7 (by decide)).trans (w3_arg7 m ρ c)
theorem w4_arg8 (c : Dev nD) : W4 m ρ c (Proc.devRef .tc main_arg8) = A8 m c := (W4_of_ne m ρ c main_arg8 (by decide)).trans (w3_arg8 m ρ c)
theorem w4_arg9 (c : Dev nD) : W4 m ρ c (Proc.devRef .tc main_arg9) = A9 m c := (W4_of_ne m ρ c main_arg9 (by decide)).trans (w3_arg9 m ρ c)
theorem w4_arg10 (c : Dev nD) : W4 m ρ c (Proc.devRef .tc main_arg10) = A10 m c := (W4_of_ne m ρ c main_arg10 (by decide)).trans (w3_arg10 m ρ c)

/-! ## Boundary 5, after the third host stretch: the first graph layer's aggregated messages -/

set_option maxHeartbeats 4000000 in
theorem w5_v43 (c : Dev nD) : W5 m ρ c (Proc.devRef .tc main_v43) = AGG1 m c := by
  show StableHlo.after hostOps2 (W4 m ρ c) (Proc.devRef .tc main_v43) = _
  after_results_simp
  rw [w4_v1 m ρ c, w4_v3 m ρ c, w4_v26 m ρ c, w4_v30 m ρ c]
  rfl
theorem w5_v30 (c : Dev nD) : W5 m ρ c (Proc.devRef .tc main_v30) = HW1 m c := (by host_keep_long : W5 m ρ c (Proc.devRef .tc main_v30) = W4 m ρ c (Proc.devRef .tc main_v30)).trans (w4_v30 m ρ c)
theorem w5_v1 (c : Dev nD) : W5 m ρ c (Proc.devRef .tc main_v1) = SRC m c := (by host_keep_long : W5 m ρ c (Proc.devRef .tc main_v1) = W4 m ρ c (Proc.devRef .tc main_v1)).trans (w4_v1 m ρ c)
theorem w5_v3 (c : Dev nD) : W5 m ρ c (Proc.devRef .tc main_v3) = DST m c := (by host_keep_long : W5 m ρ c (Proc.devRef .tc main_v3) = W4 m ρ c (Proc.devRef .tc main_v3)).trans (w4_v3 m ρ c)
theorem w5_v26 (c : Dev nD) : W5 m ρ c (Proc.devRef .tc main_v26) = NORM m c := (by host_keep_long : W5 m ρ c (Proc.devRef .tc main_v26) = W4 m ρ c (Proc.devRef .tc main_v26)).trans (w4_v26 m ρ c)
theorem w5_v28 (c : Dev nD) : W5 m ρ c (Proc.devRef .tc main_v28) = SN m c := (by host_keep_long : W5 m ρ c (Proc.devRef .tc main_v28) = W4 m ρ c (Proc.devRef .tc main_v28)).trans (w4_v28 m ρ c)
theorem w5_arg6 (c : Dev nD) : W5 m ρ c (Proc.devRef .tc main_arg6) = A6 m c := (by host_keep_long : W5 m ρ c (Proc.devRef .tc main_arg6) = W4 m ρ c (Proc.devRef .tc main_arg6)).trans (w4_arg6 m ρ c)
theorem w5_arg7 (c : Dev nD) : W5 m ρ c (Proc.devRef .tc main_arg7) = A7 m c := (by host_keep_long : W5 m ρ c (Proc.devRef .tc main_arg7) = W4 m ρ c (Proc.devRef .tc main_arg7)).trans (w4_arg7 m ρ c)
theorem w5_arg8 (c : Dev nD) : W5 m ρ c (Proc.devRef .tc main_arg8) = A8 m c := (by host_keep_long : W5 m ρ c (Proc.devRef .tc main_arg8) = W4 m ρ c (Proc.devRef .tc main_arg8)).trans (w4_arg8 m ρ c)
theorem w5_arg9 (c : Dev nD) : W5 m ρ c (Proc.devRef .tc main_arg9) = A9 m c := (by host_keep_long : W5 m ρ c (Proc.devRef .tc main_arg9) = W4 m ρ c (Proc.devRef .tc main_arg9)).trans (w4_arg9 m ρ c)
theorem w5_arg10 (c : Dev nD) : W5 m ρ c (Proc.devRef .tc main_arg10) = A10 m c := (by host_keep_long : W5 m ρ c (Proc.devRef .tc main_arg10) = W4 m ρ c (Proc.devRef .tc main_arg10)).trans (w4_arg10 m ρ c)

/-! ## Boundary 6, after region 2: the first graph layer's update -/

theorem w6_v44 (c : Dev nD) : W6 m ρ c (Proc.devRef .tc main_v44) = H1 m c := by
  refine (W6_arr m ρ c 4).trans ((Comb2.out_eq (V5 m ρ) c).trans ?_)
  have e0 : V5 m ρ c main_v43 = AGG1 m c := w5_v43 m ρ c
  have e1 : V5 m ρ c main_v30 = HW1 m c := w5_v30 m ρ c
  have e2 : V5 m ρ c main_v28 = SN m c := w5_v28 m ρ c
  have e3 : V5 m ρ c main_arg6 = A6 m c := w5_arg6 m ρ c
  rw [e0, e1, e2, e3]
  rfl
theorem w6_v1 (c : Dev nD) : W6 m ρ c (Proc.devRef .tc main_v1) = SRC m c := (W6_of_ne m ρ c main_v1 (by decide)).trans (w5_v1 m ρ c)
theorem w6_v3 (c : Dev nD) : W6 m ρ c (Proc.devRef .tc main_v3) = DST m c := (W6_of_ne m ρ c main_v3 (by decide)).trans (w5_v3 m ρ c)
theorem w6_v26 (c : Dev nD) : W6 m ρ c (Proc.devRef .tc main_v26) = NORM m c := (W6_of_ne m ρ c main_v26 (by decide)).trans (w5_v26 m ρ c)
/-- The self-loop column is one of region 2's input arrays: the region leaves it as it found it. -/
theorem w6_v28 (c : Dev nD) : W6 m ρ c (Proc.devRef .tc main_v28) = SN m c :=
  ((W6_arr m ρ c 2).trans (((dat2 (V5 m ρ) c).arrAt_in 2 rfl _).trans (A_eq2 (V5 m ρ) c 2))).trans (w5_v28 m ρ c)
theorem w6_arg7 (c : Dev nD) : W6 m ρ c (Proc.devRef .tc main_arg7) = A7 m c := (W6_of_ne m ρ c main_arg7 (by decide)).trans (w5_arg7 m ρ c)
theorem w6_arg8 (c : Dev nD) : W6 m ρ c (Proc.devRef .tc main_arg8) = A8 m c := (W6_of_ne m ρ c main_arg8 (by decide)).trans (w5_arg8 m ρ c)
theorem w6_arg9 (c : Dev nD) : W6 m ρ c (Proc.devRef .tc main_arg9) = A9 m c := (W6_of_ne m ρ c main_arg9 (by decide)).trans (w5_arg9 m ρ c)
theorem w6_arg10 (c : Dev nD) : W6 m ρ c (Proc.devRef .tc main_arg10) = A10 m c := (W6_of_ne m ρ c main_arg10 (by decide)).trans (w5_arg10 m ρ c)

/-! ## Boundary 7, after region 3: the second graph layer's product -/

theorem w7_v45 (c : Dev nD) : W7 m ρ c (Proc.devRef .tc main_v45) = HW2 m c := by
  refine (W7_arr m ρ c 3).trans ((Dense3.out_eq (V6 m ρ) c).trans ?_)
  have e0 : V6 m ρ c main_v44 = H1 m c := w6_v44 m ρ c
  have e1 : V6 m ρ c main_arg7 = A7 m c := w6_arg7 m ρ c
  rw [e0, e1]
  rfl
theorem w7_v1 (c : Dev nD) : W7 m ρ c (Proc.devRef .tc main_v1) = SRC m c := (W7_of_ne m ρ c main_v1 (by decide)).trans (w6_v1 m ρ c)
theorem w7_v3 (c : Dev nD) : W7 m ρ c (Proc.devRef .tc main_v3) = DST m c := (W7_of_ne m ρ c main_v3 (by decide)).trans (w6_v3 m ρ c)
theorem w7_v26 (c : Dev nD) : W7 m ρ c (Proc.devRef .tc main_v26) = NORM m c := (W7_of_ne m ρ c main_v26 (by decide)).trans (w6_v26 m ρ c)
theorem w7_v28 (c : Dev nD) : W7 m ρ c (Proc.devRef .tc main_v28) = SN m c := (W7_of_ne m ρ c main_v28 (by decide)).trans (w6_v28 m ρ c)
theorem w7_arg8 (c : Dev nD) : W7 m ρ c (Proc.devRef .tc main_arg8) = A8 m c := (W7_of_ne m ρ c main_arg8 (by decide)).trans (w6_arg8 m ρ c)
theorem w7_arg9 (c : Dev nD) : W7 m ρ c (Proc.devRef .tc main_arg9) = A9 m c := (W7_of_ne m ρ c main_arg9 (by decide)).trans (w6_arg9 m ρ c)
theorem w7_arg10 (c : Dev nD) : W7 m ρ c (Proc.devRef .tc main_arg10) = A10 m c := (W7_of_ne m ρ c main_arg10 (by decide)).trans (w6_arg10 m ρ c)

/-! ## Boundary 8, after the fourth host stretch: the second graph layer's aggregated messages -/

set_option maxHeartbeats 4000000 in
theorem w8_v58 (c : Dev nD) : W8 m ρ c (Proc.devRef .tc main_v58) = AGG2 m c := by
  show StableHlo.after hostOps4 (W7 m ρ c) (Proc.devRef .tc main_v58) = _
  after_results_simp
  rw [w7_v1 m ρ c, w7_v3 m ρ c, w7_v26 m ρ c, w7_v45 m ρ c]
  rfl
theorem w8_v45 (c : Dev nD) : W8 m ρ c (Proc.devRef .tc main_v45) = HW2 m c := (by host_keep_long : W8 m ρ c (Proc.devRef .tc main_v45) = W7 m ρ c (Proc.devRef .tc main_v45)).trans (w7_v45 m ρ c)
theorem w8_v28 (c : Dev nD) : W8 m ρ c (Proc.devRef .tc main_v28) = SN m c := (by host_keep_long : W8 m ρ c (Proc.devRef .tc main_v28) = W7 m ρ c (Proc.devRef .tc main_v28)).trans (w7_v28 m ρ c)
theorem w8_arg8 (c : Dev nD) : W8 m ρ c (Proc.devRef .tc main_arg8) = A8 m c := (by host_keep_long : W8 m ρ c (Proc.devRef .tc main_arg8) = W7 m ρ c (Proc.devRef .tc main_arg8)).trans (w7_arg8 m ρ c)
theorem w8_arg9 (c : Dev nD) : W8 m ρ c (Proc.devRef .tc main_arg9) = A9 m c := (by host_keep_long : W8 m ρ c (Proc.devRef .tc main_arg9) = W7 m ρ c (Proc.devRef .tc main_arg9)).trans (w7_arg9 m ρ c)
theorem w8_arg10 (c : Dev nD) : W8 m ρ c (Proc.devRef .tc main_arg10) = A10 m c := (by host_keep_long : W8 m ρ c (Proc.devRef .tc main_arg10) = W7 m ρ c (Proc.devRef .tc main_arg10)).trans (w7_arg10 m ρ c)

/-! ## Boundary 9, after region 4: the second graph layer's update -/

theorem w9_v59 (c : Dev nD) : W9 m ρ c (Proc.devRef .tc main_v59) = H2 m c := by
  refine (W9_arr m ρ c 4).trans ((Comb4.out_eq (V8 m ρ) c).trans ?_)
  have e0 : V8 m ρ c main_v58 = AGG2 m c := w8_v58 m ρ c
  have e1 : V8 m ρ c main_v45 = HW2 m c := w8_v45 m ρ c
  have e2 : V8 m ρ c main_v28 = SN m c := w8_v28 m ρ c
  have e3 : V8 m ρ c main_arg8 = A8 m c := w8_arg8 m ρ c
  rw [e0, e1, e2, e3]
  rfl
theorem w9_arg9 (c : Dev nD) : W9 m ρ c (Proc.devRef .tc main_arg9) = A9 m c := (W9_of_ne m ρ c main_arg9 (by decide)).trans (w8_arg9 m ρ c)
theorem w9_arg10 (c : Dev nD) : W9 m ρ c (Proc.devRef .tc main_arg10) = A10 m c := (W9_of_ne m ρ c main_arg10 (by decide)).trans (w8_arg10 m ρ c)

/-! ## Boundary 10, after region 5: the result -/

/-- The result array after the kernel's run is the reference's result of the launch arguments. -/
theorem result (c : Dev nD) : W10 m ρ c (Proc.devRef .tc main_v60) = OUT m c := by
  refine (W10_arr m ρ c 3).trans ((Lin5.out_eq (V9 m ρ) c).trans ?_)
  have e0 : V9 m ρ c main_v59 = H2 m c := w9_v59 m ρ c
  have e1 : V9 m ρ c main_arg9 = A9 m c := w9_arg9 m ρ c
  have e2 : V9 m ρ c main_arg10 = A10 m c := w9_arg10 m ρ c
  rw [e0, e1, e2]
  rfl

end Cert.KernelIdeal.Chain

end
-- ==== Proof.lean ====
/-
  The certificate's claims. Kernel and reference are the same two-layer graph convolution network on 100000 nodes
  and 1600000 weighted edges: h₀ = max(x·W₁ + b₁, 0); with deg = 1 + (sum of the edge weights into a node),
  dinv = deg^(-1/2), norm(e) = dinv[src e]·w(e)·dinv[dst e] and the self-loop weight dinv², each of two layers takes
  hw = h·W, agg[n] = sum over the edges e into n of hw[src e]·norm(e), and h' = max((agg + hw·dinv²) + b, 0); the result
  is h₂·W_out + b_out. The kernel computes the four matrix products and the two layer updates in six kernel regions,
  50 row blocks of 2000 rows each, and everything that follows the edge list (degrees, normalisation, gathers and
  scatter-adds) by the same host operations as the reference. On the extended reals a change of float format is the
  identity and a block product into a zero accumulator is the reference's sum over the contraction index, so every
  region's output array is the reference's stage of the arrays the region reads, index by index; no law beyond that is
  used, and the precondition (finite inputs) is never opened.
  * frame_Kernel, frame_KernelIdeal: the generated frames. frame_ReferenceIdeal: the generated reference run with its
    result dropped.
  * preserves_Kernel_KernelIdeal: the idealization rewrote nothing; the claim is `True`.
  * algebraic_KernelIdeal_ReferenceIdeal: the kernel's run ends with its result array at the last segment boundary's
    contents (KernelRun), which are the reference's result stage of the launch arguments (Chain); the reference's run
    ends at the same stage of its own arguments (the generated Run and Read), and the arguments agree.
-/
import proofs.«127172_j3478923510362_1_alg».proof.Defs
import proofs.«127172_j3478923510362_1_alg».proof.Proof.Gen.Kernel
import proofs.«127172_j3478923510362_1_alg».proof.Proof.Gen.Kernel.Frame
import proofs.«127172_j3478923510362_1_alg».proof.Proof.Gen.KernelIdeal
import proofs.«127172_j3478923510362_1_alg».proof.Proof.Gen.KernelIdeal.Frame
import proofs.«127172_j3478923510362_1_alg».proof.Proof.Gen.ReferenceIdeal
import proofs.«127172_j3478923510362_1_alg».proof.Proof.Gen.ReferenceIdeal.Run
import proofs.«127172_j3478923510362_1_alg».proof.Proof.Gen.ReferenceIdeal.Read
import proofs.«127172_j3478923510362_1_alg».proof.Proof.Gen.Pre_finite_inputs
import proofs.«127172_j3478923510362_1_alg».proof.Proof.KernelRun
import proofs.«127172_j3478923510362_1_alg».proof.Proof.Chain
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the reference's result stage of the (agreeing) launch arguments in their result arrays. -/
theorem algebraic : Cert.algebraic_KernelIdeal_ReferenceIdeal := by
  intro m ρ m' ρ' _ hagree
  refine ⟨fun c => Cert.KernelIdeal.Chain.OUT m c, ?_, ?_⟩
  · exact (θ_run Cert.KernelIdeal.defs _ _).mono
      (fun r h c => ⟨(h c).1.trans (Cert.KernelIdeal.Chain.result m ρ c), (h c).2⟩)
      (Cert.KernelIdeal.Run.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10⟩ := hagree c
    rw [Cert.ReferenceIdeal.Read.val_main_v79_eq, e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
